-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S128x128 : Shape := ⟨2, ![128, 128]⟩
abbrev S128 : Shape := ⟨1, ![128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8x4096x128 .f32) (main_arg1 : FVec F S128x128 .f32) (main_arg2 : FVec F S128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8x4096x128 : Shape := ⟨3, ![8, 4096, 128]⟩
abbrev S128x128 : Shape := ⟨2, ![128, 128]⟩
abbrev S128 : Shape := ⟨1, ![128]⟩
abbrev S1x1024x128 : Shape := ⟨3, ![1, 1024, 128]⟩
abbrev S1024x128 : Shape := ⟨2, ![1024, 128]⟩
abbrev S1x128 : Shape := ⟨2, ![1, 128]⟩
abbrev S8x2048x2x128 : Shape := ⟨4, ![8, 2048, 2, 128]⟩
abbrev S_ : Shape := ⟨0, ![]⟩
abbrev S8x2048x128 : Shape := ⟨3, ![8, 2048, 128]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 12
  | .vmem => 20
  | .smem => 0
  | _ => 0

abbrev bufTy : (tb : Table) → Fin (tcTables nBuf tb) → BufTy
  | .hbm, ⟨0, _⟩ => ⟨S8x4096x128, .f32⟩
  | .hbm, ⟨1, _⟩ => ⟨S128x128, .f32⟩
  | .hbm, ⟨2, _⟩ => ⟨S128, .f32⟩
  | .hbm, ⟨3, _⟩ => ⟨S8x4096x128, .f32⟩
  | .hbm, ⟨4, _⟩ => ⟨S8x2048x2x128, .f32⟩
  | .hbm, ⟨5, _⟩ => ⟨S_, .f32⟩
  | .hbm, ⟨6, _⟩ => ⟨S8x2048x128, .f32⟩
  | .hbm, ⟨7, _⟩ => ⟨S_, .f32⟩
  | .hbm, ⟨8, _⟩ => ⟨S8x2048x128, .f32⟩
  | .hbm, ⟨9, _⟩ => ⟨S8x2048x128, .f32⟩
  | .hbm, ⟨10, _⟩ => ⟨S8x2048x128, .f32⟩
  | .hbm, ⟨11, _⟩ => ⟨S8x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S128x128, .f32⟩
  | .local _ .vmem, ⟨3, _⟩ => ⟨S128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S128x128, .f32⟩
  | .local _ .vmem, ⟨9, _⟩ => ⟨S128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S1024x128, .f32⟩
  | .local _ .vmem, ⟨19, _⟩ => ⟨S1024x1, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc2_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![8, 2, 4], ![false, false, false]⟩

def k2_cond2 (i : grid2.Coords) : BitVec 1 :=
  let arg2 : BitVec 32 := BitVec.ofNat 32 (i 2).val
  let c3_i32 : BitVec 32 := 3#32
  let v33 : BitVec 1 := Scalar.cmpi .eq arg2 c3_i32
  let v34 : BitVec 32 := Scalar.extui v33
  let c0_i32_18 : BitVec 32 := 0#32
  let v35 : BitVec 1 := Scalar.cmpi .ne v34 c0_i32_18
  v35

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  shapeCasts_S1024x128_S1x1024x128 : S1024x128.ShapeCasts S1x1024x128
  shapeCasts_S8x4096x128_S8x2048x2x128 : S8x4096x128.ShapeCasts S8x2048x2x128
  reducesTo_S8x2048x2x128_S8x2048x128_d2 : S8x2048x2x128.ReducesTo [2] S8x2048x128
  h_S_ : 0 < S_.numel
  bcast_S_S8x2048x128 : S_.BroadcastsInDim S8x2048x128 (![] : Fin 0 → Fin S8x2048x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  dot_S1024x128_S128x128_S1024x128_1_1_0_0_n_n_wf : DotDims.WF S1024x128 S128x128 S1024x128 [1] [1] [0] [0] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x4096x128.size a
  hwx0_0 : ∀ i : grid0.Coords, EltTy.bits .f32 = 32 ∨ (Rect.block (s := S8x4096x128) S1x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S8x4096x128.size a
  hwx0_3 : ∀ i : grid0.Coords, EltTy.bits .f32 = 32 ∨ (Rect.block (s := S8x4096x128) S1x1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x2048x128.size a
  hwx1_0 : ∀ i : grid1.Coords, EltTy.bits .f32 = 32 ∨ (Rect.block (s := S8x2048x128) S1x1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x2048x128.size a
  hwx1_3 : ∀ i : grid1.Coords, EltTy.bits .f32 = 32 ∨ (Rect.block (s := S8x2048x128) S1x1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x128.size a ≤ S8x2048x128.size a
  hwx2_0 : ∀ i : grid2.Coords, EltTy.bits .f32 = 32 ∨ (Rect.block (s := S8x2048x128) S1x1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x128.size a ≤ S8x4096x128.size a
  hwx2_1 : ∀ i : grid2.Coords, EltTy.bits .f32 = 32 ∨ (Rect.block (s := S8x4096x128) S1x1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x128.size a ≤ S8x2048x128.size a
  hwx2_2 : ∀ i : grid2.Coords, EltTy.bits .f32 = 32 ∨ (Rect.block (s := S8x2048x128) S1x1024x128.size (cc2_transform_2 i) (hinb2_2 i)).WholeWords (EltTy.packing .f32)

variable [Facts₀]

def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1x1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S128x128 : Shape := ⟨2, ![128, 128]⟩
abbrev S128 : Shape := ⟨1, ![128]⟩
abbrev S1x1x128 : Shape := ⟨3, ![1, 1, 128]⟩
abbrev S8x2048x2x128 : Shape := ⟨4, ![8, 2048, 2, 128]⟩
abbrev S_ : Shape := ⟨0, ![]⟩
abbrev S8x2048x128 : Shape := ⟨3, ![8, 2048, 128]⟩
abbrev S8x2048 : Shape := ⟨2, ![8, 2048]⟩
abbrev S8x2048x1 : Shape := ⟨3, ![8, 2048, 1]⟩
abbrev S8x4096 : Shape := ⟨2, ![8, 4096]⟩
abbrev S8x1x4096 : Shape := ⟨3, ![8, 1, 4096]⟩
abbrev S8x2048x4096 : Shape := ⟨3, ![8, 2048, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S128x128, .f32⟩
  | .hbm, ⟨2, _⟩ => ⟨S128, .f32⟩
  | .hbm, ⟨3, _⟩ => ⟨S8x4096x128, .f32⟩
  | .hbm, ⟨4, _⟩ => ⟨S1x1x128, .f32⟩
  | .hbm, ⟨5, _⟩ => ⟨S8x4096x128, .f32⟩
  | .hbm, ⟨6, _⟩ => ⟨S8x4096x128, .f32⟩
  | .hbm, ⟨7, _⟩ => ⟨S8x2048x2x128, .f32⟩
  | .hbm, ⟨8, _⟩ => ⟨S_, .f32⟩
  | .hbm, ⟨9, _⟩ => ⟨S8x2048x128, .f32⟩
  | .hbm, ⟨10, _⟩ => ⟨S_, .f32⟩
  | .hbm, ⟨11, _⟩ => ⟨S8x2048x128, .f32⟩
  | .hbm, ⟨12, _⟩ => ⟨S8x2048x128, .f32⟩
  | .hbm, ⟨13, _⟩ => ⟨S8x2048x128, .f32⟩
  | .hbm, ⟨14, _⟩ => ⟨S1x1x128, .f32⟩
  | .hbm, ⟨15, _⟩ => ⟨S8x2048x128, .f32⟩
  | .hbm, ⟨16, _⟩ => ⟨S8x2048x128, .f32⟩
  | .hbm, ⟨17, _⟩ => ⟨S8x2048x128, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x4096x128, .f32⟩
  | .hbm, ⟨22, _⟩ => ⟨S_, .f32⟩
  | .hbm, ⟨23, _⟩ => ⟨S8x4096, .f32⟩
  | .hbm, ⟨24, _⟩ => ⟨S8x1x4096, .f32⟩
  | .hbm, ⟨25, _⟩ => ⟨S8x2048x4096, .f32⟩
  | .hbm, ⟨26, _⟩ => ⟨S8x2048x4096, .f32⟩
  | .hbm, ⟨27, _⟩ => ⟨S8x2048x4096, .f32⟩
  | .hbm, ⟨28, _⟩ => ⟨S8x2048x4096, .f32⟩
  | .hbm, ⟨29, _⟩ => ⟨S_, .f32⟩
  | .hbm, ⟨30, _⟩ => ⟨S8x2048x4096, .f32⟩
  | .hbm, ⟨31, _⟩ => ⟨S8x2048x4096, .f32⟩
  | .hbm, ⟨32, _⟩ => ⟨S8x2048x4096, .f32⟩
  | .hbm, ⟨33, _⟩ => ⟨S_, .f32⟩
  | .hbm, ⟨34, _⟩ => ⟨S8x2048x4096, .f32⟩
  | .hbm, ⟨35, _⟩ => ⟨S8x2048x4096, .f32⟩
  | .hbm, ⟨36, _⟩ => ⟨S8x2048x4096, .f32⟩
  | .hbm, ⟨37, _⟩ => ⟨S8x2048x4096, .f32⟩
  | .hbm, ⟨38, _⟩ => ⟨S_, .f32⟩
  | .hbm, ⟨39, _⟩ => ⟨S8x2048x4096, .f32⟩
  | .hbm, ⟨40, _⟩ => ⟨S8x2048x4096, .f32⟩
  | .hbm, ⟨41, _⟩ => ⟨S8x2048x4096, .f32⟩
  | .hbm, ⟨42, _⟩ => ⟨S8x2048x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x4096x128_0_1_2 : S1x1x128.BroadcastsInDim S8x4096x128 (![0, 1, 2] : Fin 3 → Fin S8x4096x128.rank)
  shapeCasts_S8x4096x128_S8x2048x2x128 : S8x4096x128.ShapeCasts S8x2048x2x128
  reducesTo_S8x2048x2x128_S8x2048x128_d2 : S8x2048x2x128.ReducesTo [2] S8x2048x128
  h_S_ : 0 < S_.numel
  bcast_S_S8x2048x128 : S_.BroadcastsInDim S8x2048x128 (![] : Fin 0 → Fin S8x2048x128.rank)
  bcast_S1x1x128_S8x2048x128_0_1_2 : S1x1x128.BroadcastsInDim S8x2048x128 (![0, 1, 2] : Fin 3 → Fin S8x2048x128.rank)
  reducesTo_S8x2048x128_S8x2048_d2 : S8x2048x128.ReducesTo [2] S8x2048
  bcast_S8x2048_S8x2048x1_0_1 : S8x2048.BroadcastsInDim S8x2048x1 (![0, 1] : Fin 2 → Fin S8x2048x1.rank)
  reducesTo_S8x4096x128_S8x4096_d2 : S8x4096x128.ReducesTo [2] S8x4096
  bcast_S8x4096_S8x1x4096_0_2 : S8x4096.BroadcastsInDim S8x1x4096 (![0, 2] : Fin 2 → Fin S8x1x4096.rank)
  bcast_S8x2048x1_S8x2048x4096_0_1_2 : S8x2048x1.BroadcastsInDim S8x2048x4096 (![0, 1, 2] : Fin 3 → Fin S8x2048x4096.rank)
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x4096x128_S128x128_S8x4096x128_2_1_01_0_n_n_wf : DotDims.WF S8x4096x128 S128x128 S8x4096x128 [2] [1] [0, 1] [0] [] []
  dot_S8x2048x128_S128x128_S8x2048x128_2_1_01_0_n_n_wf : DotDims.WF S8x2048x128 S128x128 S8x2048x128 [2] [1] [0, 1] [0] [] []
  dot_S8x2048x128_S8x4096x128_S8x2048x4096_2_2_1_1_0_0_wf : DotDims.WF S8x2048x128 S8x4096x128 S8x2048x4096 [2] [2] [1] [1] [0] [0]
  dot_S8x2048x4096_S8x4096x128_S8x2048x128_2_1_1_2_0_0_wf : DotDims.WF S8x2048x4096 S8x4096x128 S8x2048x128 [2] [1] [1] [2] [0] [0]

variable [Facts₀]

def dot_S8x4096x128_S128x128_S8x4096x128_2_1_01_0_n_n : DotDims S8x4096x128 S128x128 S8x4096x128 where
  lhsContracting := [2]
  rhsContracting := [1]
  lhsNonContracting := [0, 1]
  rhsNonContracting := [0]
  lhsBatch := []
  rhsBatch := []
  wf := dot_S8x4096x128_S128x128_S8x4096x128_2_1_01_0_n_n_wf
def dot_S8x2048x128_S128x128_S8x2048x128_2_1_01_0_n_n : DotDims S8x2048x128 S128x128 S8x2048x128 where
  lhsContracting := [2]
  rhsContracting := [1]
  lhsNonContracting := [0, 1]
  rhsNonContracting := [0]
  lhsBatch := []
  rhsBatch := []
  wf := dot_S8x2048x128_S128x128_S8x2048x128_2_1_01_0_n_n_wf
def dot_S8x2048x128_S8x4096x128_S8x2048x4096_2_2_1_1_0_0 : DotDims S8x2048x128 S8x4096x128 S8x2048x4096 where
  lhsContracting := [2]
  rhsContracting := [2]
  lhsNonContracting := [1]
  rhsNonContracting := [1]
  lhsBatch := [0]
  rhsBatch := [0]
  wf := dot_S8x2048x128_S8x4096x128_S8x2048x4096_2_2_1_1_0_0_wf
def dot_S8x2048x4096_S8x4096x128_S8x2048x128_2_1_1_2_0_0 : DotDims S8x2048x4096 S8x4096x128 S8x2048x128 where
  lhsContracting := [2]
  rhsContracting := [1]
  lhsNonContracting := [1]
  rhsNonContracting := [2]
  lhsBatch := [0]
  rhsBatch := [0]
  wf := dot_S8x2048x4096_S8x4096x128_S8x2048x128_2_1_1_2_0_0_wf

class Facts : Prop extends Facts₀ where

variable [Facts]
-- ==== Proof.K.Lin0.lean ====
/-
  The first linear layer's launch (custom_call 0), at the buffer contents `V` the region is entered from.
  One grid point (b, l) stages a 1024-row slab of the input, the whole weight matrix and the bias, and the body
  stores into the output slab the product of the slab with the transposed weights plus the bias row: one store that
  covers the staging buffer. Here: each window's block at a point, what the body leaves in the output buffer, the
  body's triple, the pipeline's proof data and the body obligation, at any float instance.
-/
import proofs.«132651_j60120952209550_1_alg».proof.Proof.Gen.Kernel.Launch
import proofs.«132651_j60120952209550_1_alg».proof.Proof.Gen.Kernel.Skeleton
import proofs.«132651_j60120952209550_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: a window that
    is not fetched at a point has not moved since it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole slab, the whole weight matrix, the whole bias: the rectangles the body reads and writes. -/
abbrev rx0 : Rect S1x1024x128 := Rect.unit (s := S1x1024x128) ![0, 0, 0] S1x1024x128.size inb_S1x1024x128_S1x1024x128_0_0_0
abbrev rw0 : Rect S128x128 := Rect.unit (s := S128x128) ![0, 0] S128x128.size inb_S128x128_S128x128_0_0
abbrev rb0 : Rect S128 := Rect.unit (s := S128) ![0] S128.size inb_S128_S128_0

/-- The output slab's staging buffer after the body, from the three input blocks: its one store as a piece. -/
def out0_3 (x0 : Vec F S1x1024x128 .f32) (x1 : Vec F S128x128 .f32) (x2 : Vec F S128 .f32) : Vec F S1x1024x128 .f32 :=
  View.canon [⟨rx0, k0_pay1 (View.ld x0 rx0) (View.ld x1 rw0) (View.ld x2 rb0)⟩]

/-- That store covers the buffer. -/
theorem cover0_3 (p0 : Vec F S1x1024x128 .f32) (y : S1x1024x128.Idx) :
    ∃ pc ∈ ([⟨rx0, p0⟩] : List (View.Piece (Elt F) S1x1024x128 .f32)), y ∈ pc.1.set :=
  View.cover_of_tiled [⟨rx0, p0⟩] S1x1024x128.size (by rfl) y

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords)
    (arg2 : Memref sig .tc .vmem S1x1024x128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S1x1024x128 .f32) (harg5 : arg5.IsWhole)
    (x0 : Vec F S1x1024x128 .f32) (x1 : Vec F S128x128 .f32) (x2 : Vec F S128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Lin1.lean ====
/-
  The second linear layer's launch (custom_call 1), at the buffer contents `V` the region is entered from.
  One grid point (b, l) stages a 1024-row slab of the input, the whole weight matrix and the bias, and the body
  stores into the output slab the product of the slab with the transposed weights plus the bias row: one store that
  covers the staging buffer. Here: each window's block at a point, what the body leaves in the output buffer, the
  body's triple, the pipeline's proof data and the body obligation, at any float instance.
-/
import proofs.«132651_j60120952209550_1_alg».proof.Proof.Gen.Kernel.Launch
import proofs.«132651_j60120952209550_1_alg».proof.Proof.Gen.Kernel.Skeleton
import proofs.«132651_j60120952209550_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: a window that
    is not fetched at a point has not moved since it was. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole slab, the whole weight matrix, the whole bias: the rectangles the body reads and writes. -/
abbrev rx1 : Rect S1x1024x128 := Rect.unit (s := S1x1024x128) ![0, 0, 0] S1x1024x128.size inb_S1x1024x128_S1x1024x128_0_0_0
abbrev rw1 : Rect S128x128 := Rect.unit (s := S128x128) ![0, 0] S128x128.size inb_S128x128_S128x128_0_0
abbrev rb1 : Rect S128 := Rect.unit (s := S128) ![0] S128.size inb_S128_S128_0

/-- The output slab's staging buffer after the body, from the three input blocks: its one store as a piece. -/
def out1_3 (x0 : Vec F S1x1024x128 .f32) (x1 : Vec F S128x128 .f32) (x2 : Vec F S128 .f32) : Vec F S1x1024x128 .f32 :=
  View.canon [⟨rx1, k1_pay1 (View.ld x0 rx1) (View.ld x1 rw1) (View.ld x2 rb1)⟩]

/-- That store covers the buffer. -/
theorem cover1_3 (p0 : Vec F S1x1024x128 .f32) (y : S1x1024x128.Idx) :
    ∃ pc ∈ ([⟨rx1, p0⟩] : List (View.Piece (Elt F) S1x1024x128 .f32)), y ∈ pc.1.set :=
  View.cover_of_tiled [⟨rx1, p0⟩] S1x1024x128.size (by rfl) y

set_option maxHeartbeats 1000000 in
/-- The body on whole staging memrefs, the inputs' at contents `x0 x1 x2` and the output's at anything, runs to the
    continuation holding the inputs' as they were and the output's at `out1_3` of them. -/
theorem sound_kernel1 (c : Dev nD) (E : Set ℕ) (i : grid1.Coords)
    (arg2 : Memref sig .tc .vmem S1x1024x128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S1x1024x128 .f32) (harg5 : arg5.IsWhole)
    (x0 : Vec F S1x1024x128 .f32) (x1 : Vec F S128x128 .f32) (x2 : Vec F S128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__linear_kernel i arg2 harg2 arg3 harg3 arg4 harg4 arg5 harg5) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer at its block and the output's at `out1_3` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Sim2Cond.lean ====
/-
  The similarity kernel's launch (custom_call 2): what its grid decides.
  A grid point is (b, qi, ki); the body's first conditional is taken where ki = 0 (it resets the accumulator and
  stores the query rows' squared lengths), its second where ki = 3 (it copies the accumulator out). Over the 64 points
  in grid order these are the points ≡ 0 and ≡ 3 (mod 4). The output window is stored only at the latter, and is
  idle, and not written back, at the others.
-/
import proofs.«132651_j60120952209550_1_alg».proof.Proof.Gen.Kernel.Launch
import proofs.«132651_j60120952209550_1_alg».proof.Proof.Gen.Kernel.Skeleton
import proofs.«132651_j60120952209550_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test, from the grid coordinates. -/
abbrev cond2_0 (i : grid2.Coords) : Prop :=
  (Scalar.cmpi .ne (Scalar.extui (Scalar.cmpi .eq (BitVec.ofNat 32 (i 2).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's test. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Where the second conditional fails the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where it holds the window is live. -/
theorem liveAt2_2 : ∀ t : Fin cfg2.N, cond2_1 (grid2.coords t) → cfg2.idle 2 (grid2.coords t) = false := by decide +kernel

/-- The whole slab, the whole accumulator, the whole column of squared lengths. -/
abbrev rs2 : Rect S1x1024x128 := Rect.unit (s := S1x1024x128) ![0, 0, 0] S1x1024x128.size inb_S1x1024x128_S1x1024x128_0_0_0
abbrev ra2 : Rect S1024x128 := Rect.unit (s := S1024x128) ![0, 0] S1024x128.size inb_S1024x128_S1024x128_0_0
abbrev rq2 : Rect S1024x1 := Rect.unit (s := S1024x1) ![0, 0] S1024x1.size inb_S1024x1_S1024x1_0_0

/-- The two scratch operands: whole scoped buffers of the kernel's own. -/
abbrev scA : Memref sig .tc .vmem S1024x128 .f32 := Memref.whole cc2_scratch0
abbrev scQ : Memref sig .tc .vmem S1024x1 .f32 := Memref.whole cc2_scratch1

end Cert.Kernel.Hand

end
-- ==== Proof.K.Sim2Runs.lean ====
/-
  The similarity kernel's body on whole staging memrefs and scratch buffers, in its three control cases.
  With q, p the query and key slabs, a the accumulator and s the column of squared query lengths:
  at a first key block (ki = 0) the body zeroes the accumulator, stores s := ‖q_r‖², then accumulates;
  at a middle block it only accumulates, a := step q p s a; at the last block (ki = 3) it accumulates and copies the
  accumulator into the output slab. Elsewhere the output slab is handed back as it was found.
  `step` is the skeleton's payload of the accumulating store, `norms` that of the squared lengths.
-/
import proofs.«132651_j60120952209550_1_alg».proof.Proof.K.Sim2Cond
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer rectangle are zero. -/
theorem hz2 : (![0, 0] : Fin 2 → ℕ) = fun _ => 0 := by funext a; fin_cases a <;> rfl
theorem hz3 : (![0, 0, 0] : Fin 3 → ℕ) = fun _ => 0 := by funext a; fin_cases a <;> rfl

/-- Every index lies in a whole-buffer rectangle. -/
theorem mem_unit_zero {S : Shape} {off : Fin S.rank → ℕ} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- What a list of stores whose LAST is a whole-buffer store leaves, read back: that store's payload. -/
theorem read_writes_last_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), mem_unit_zero h inb y⟩)).trans
    (View.canon_cons_unit_zero h inb w L)

set_option maxHeartbeats 2000000 in
/-- A middle key block: the accumulator takes one step, everything else is as it was. -/
theorem sound_kernel2_B (c : Dev nD) (E : Set ℕ) (i : grid2.Coords)
    (arg3 : Memref sig .tc .vmem S1x1024x128 .f32) (harg3 : arg3.IsWhole) (arg4 : Memref sig .tc .vmem S1x1024x128 .f32) (harg4 : arg4.IsWhole)
    (arg5 : Memref sig .tc .vmem S1x1024x128 .f32) (harg5 : arg5.IsWhole) (arg6 : Memref sig .tc .vmem S1024x128 .f32) (harg6 : arg6.IsWhole)
    (arg7 : Memref sig .tc .vmem S1024x1 .f32) (harg7 : arg7.IsWhole) (hc0 : ¬cond2_0 i) (hc1 : ¬cond2_1 i)
    (q p o : Vec F S1x1024x128 .f32) (a : Vec F S1024x128 .f32) (s : Vec F S1024x1 .f32) (K : PUnit → sProp 𝕄) :
    iprop(owns (c : Thread nD τ) arg3 fullShare q ∗ owns (c : Thread nD τ) arg4 fullShare p ∗ owns (c : Thread nD τ) arg5 fullShare o
        ∗ owns (c : Thread nD τ) arg6 fullShare a ∗ owns (c : Thread nD τ) arg7 fullShare s
        ∗ (iprop(owns (c : Thread nD τ) arg3 fullShare q ∗ owns (c : Thread nD τ) arg4 fullShare p ∗ owns (c : Thread nD τ) arg5 fullShare o
            ∗ owns (c : Thread nD τ) arg6 fullShare (k2_pay4 q p s a) ∗ owns (c : Thread nD τ) arg7 fullShare s) -∗ K ⟨⟩))
      ⊢ wp frame (wpE (defs₀ (F := F)) Variants.none c none) E (cc2__sim_kernel i arg3 harg3 arg4 harg4 arg5 harg5 arg6 harg6 arg7 harg7) K := by
  simp only [cc2__sim_kernel_eq_skeleton]; unfold cc2__sim_kernel_skel
  simp only [k2_part1_eq_skeleton]
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try sl_unfold_words
    rw [read_writes_last_whole (S := S1024x128) _ _ hz2]
    simp only [View.readAt_eq_ld, View.ld_unit_zero (S := S1024x128) hz2, View.ld_unit_zero (S := S1024x1) hz2, View.ld_unit_zero (S := S1x1024x128) hz3, View.readCov_unit_zero (S := S1024x128) _ hz2, View.readCov_unit_zero (S := S1024x1) _ hz2]
  iexists f7; isplitr; · ipureintro; rfl
  iexact H7

set_option maxHeartbeats 2000000 in
/-- The last key block: the accumulator takes one step and is copied into the output slab. -/
theorem sound_kernel2_C (c : Dev nD) (E : Set ℕ) (i : grid2.Coords)
    (arg3 : Memref sig .tc .vmem S1x1024x128 .f32) (harg3 : arg3.IsWhole) (arg4 : Memref sig .tc .vmem S1x1024x128 .f32) (harg4 : arg4.IsWhole)
    (arg5 : Memref sig .tc .vmem S1x1024x128 .f32) (harg5 : arg5.IsWhole) (arg6 : Memref sig .tc .vmem S1024x128 .f32) (harg6 : arg6.IsWhole)
    (arg7 : Memref sig .tc .vmem S1024x1 .f32) (harg7 : arg7.IsWhole) (hc0 : ¬cond2_0 i) (hc1 : cond2_1 i)
    (q p : Vec F S1x1024x128 .f32) (a : Vec F S1024x128 .f32) (s : Vec F S1024x1 .f32) (K : PUnit → sProp 𝕄) :
    iprop(owns (c : Thread nD τ) arg3 fullShare q ∗ owns (c : Thread nD τ) arg4 fullShare p ∗ (∃ d, owns (c : Thread nD τ) arg5 fullShare d)
        ∗ owns (c : Thread nD τ) arg6 fullShare a ∗ owns (c : Thread nD τ) arg7 fullShare s
        ∗ (iprop(owns (c : Thread nD τ) arg3 fullShare q ∗ owns (c : Thread nD τ) arg4 fullShare p ∗ owns (c : Thread nD τ) arg5 fullShare (k2_pay1 (k2_pay4 q p s a))
            ∗ owns (c : Thread nD τ) arg6 fullShare (k2_pay4 q p s a) ∗ owns (c : Thread nD τ) arg7 fullShare s) -∗ K ⟨⟩))
      ⊢ wp frame (wpE (defs₀ (F := F)) Variants.none c none) E (cc2__sim_kernel i arg3 harg3 arg4 harg4 arg5 harg5 arg6 harg6 arg7 harg7) K := by
  simp only [cc2__sim_kernel_eq_skeleton]; unfold cc2__sim_kernel_skel
  simp only [k2_part1_eq_skeleton]
  unfold owns
  iintro ⟨⟨%f3, %hf3, H3⟩, ⟨%f4, %hf4, H4⟩, ⟨%d5, %f5, -, H5⟩, ⟨%f6, %hf6, H6⟩, ⟨%f7, %hf7, H7⟩, Hk⟩
  subst hf3; subst hf4; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try sl_unfold_words
    rw [read_writes_last_whole (S := S1x1024x128) _ _ hz3]
    simp only [View.readAt_eq_ld, View.ld_unit_zero (S := S1024x128) hz2, View.ld_unit_zero (S := S1024x1) hz2, View.ld_unit_zero (S := S1x1024x128) hz3, View.readCov_unit_zero (S := S1024x128) _ hz2, View.readCov_unit_zero (S := S1024x1) _ hz2]
  isplitl [H6]
  · iexists _; isplitr
    swap; · iexact H6
    ipureintro
    try sl_unfold_words
    rw [read_writes_last_whole (S := S1024x128) _ _ hz2]
    simp only [View.readAt_eq_ld, View.ld_unit_zero (S := S1024x128) hz2, View.ld_unit_zero (S := S1024x1) hz2, View.ld_unit_zero (S := S1x1024x128) hz3, View.readCov_unit_zero (S := S1024x128) _ hz2, View.readCov_unit_zero (S := S1024x1) _ hz2]
  iexists f7; isplitr; · ipureintro; rfl
  iexact H7

set_option maxHeartbeats 2000000 in
/-- A first key block: the accumulator is zeroed, the squared query lengths stored, then one step taken. -/
theorem sound_kernel2_A (c : Dev nD) (E : Set ℕ) (i : grid2.Coords)
    (arg3 : Memref sig .tc .vmem S1x1024x128 .f32) (harg3 : arg3.IsWhole) (arg4 : Memref sig .tc .vmem S1x1024x128 .f32) (harg4 : arg4.IsWhole)
    (arg5 : Memref sig .tc .vmem S1x1024x128 .f32) (harg5 : arg5.IsWhole) (arg6 : Memref sig .tc .vmem S1024x128 .f32) (harg6 : arg6.IsWhole)
    (arg7 : Memref sig .tc .vmem S1024x1 .f32) (harg7 : arg7.IsWhole) (hc0 : cond2_0 i) (hc1 : ¬cond2_1 i)
    (q p o : Vec F S1x1024x128 .f32) (K : PUnit → sProp 𝕄) :
    iprop(owns (c : Thread nD τ) arg3 fullShare q ∗ owns (c : Thread nD τ) arg4 fullShare p ∗ owns (c : Thread nD τ) arg5 fullShare o
        ∗ (∃ d, owns (c : Thread nD τ) arg6 fullShare d) ∗ (∃ d, owns (c : Thread nD τ) arg7 fullShare d)
        ∗ (iprop(owns (c : Thread nD τ) arg3 fullShare q ∗ owns (c : Thread nD τ) arg4 fullShare p ∗ owns (c : Thread nD τ) arg5 fullShare o
            ∗ owns (c : Thread nD τ) arg6 fullShare (k2_pay4 q p (k2_pay3 q) k2_pay2) ∗ owns (c : Thread nD τ) arg7 fullShare (k2_pay3 q)) -∗ K ⟨⟩))
      ⊢ wp frame (wpE (defs₀ (F := F)) Variants.none c none) E (cc2__sim_kernel i arg3 harg3 arg4 harg4 arg5 harg5 arg6 harg6 arg7 harg7) K := by
  simp only [cc2__sim_kernel_eq_skeleton]; unfold cc2__sim_kernel_skel
  simp only [k2_part1_eq_skeleton]
  unfold owns
  iintro ⟨⟨%f3, %hf3, H3⟩, ⟨%f4, %hf4, H4⟩, ⟨%f5, %hf5, H5⟩, ⟨%d6, %f6, -, H6⟩, ⟨%d7, %f7, -, H7⟩, Hk⟩
  subst hf3; subst hf4; subst hf5
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try sl_unfold_words
    rw [read_writes_last_whole (S := S1024x128) _ _ hz2]
    simp only [View.readAt_eq_ld, View.ld_unit_zero (S := S1024x128) hz2, View.ld_unit_zero (S := S1024x1) hz2, View.ld_unit_zero (S := S1x1024x128) hz3, View.readCov_unit_zero (S := S1024x128) _ hz2, View.readCov_unit_zero (S := S1024x1) _ hz2]
  iexists _; isplitr
  swap; · iexact H7
  ipureintro
  try sl_unfold_words
  rw [read_writes_last_whole (S := S1024x1) _ _ hz2]
  simp only [View.readAt_eq_ld, View.ld_unit_zero (S := S1024x128) hz2, View.ld_unit_zero (S := S1024x1) hz2, View.ld_unit_zero (S := S1x1024x128) hz3, View.readCov_unit_zero (S := S1024x128) _ hz2, View.readCov_unit_zero (S := S1024x1) _ hz2]

end Cert.Kernel.Hand

end
-- ==== Proof.K.Sim2.lean ====
/-
  The similarity kernel's launch (custom_call 2), at the buffer contents `V` the region is entered from: the
  pipeline's proof data and the body obligation.
  The 64 grid points run in order (b, qi, ki), ki fastest. Between points the kernel keeps two scratch buffers: the
  accumulator a [1024,128] and the column s [1024,1] of the current query slab's squared row lengths. After point n they
  hold (`scAt2`): at a point ≡ 0 (mod 4), one step from the zero accumulator with s freshly computed from the query slab;
  at any other point, one step from what the point before left, s unchanged. The output slab's buffer is written, with
  the accumulator, only at the points ≡ 3 (mod 4), where the pipeline writes it back.
  The invariant before a point: before the first, every scoped buffer at anything; afterwards the two scratch buffers at
  `scAt2` of the point before, the other calls' staging buffers at anything, the generator register at some state.
-/
import proofs.«132651_j60120952209550_1_alg».proof.Proof.K.Sim2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- One step from a fresh start: the accumulator zeroed, the squared lengths computed from the query slab `q`. -/
def scFresh (q p : Vec F S1x1024x128 .f32) : Vec F S1024x128 .f32 × Vec F S1024x1 .f32 :=
  (k2_pay4 q p (k2_pay3 q) k2_pay2, k2_pay3 q)
/-- One step from what the point before left. -/
def scNext (q p : Vec F S1x1024x128 .f32) (prev : Vec F S1024x128 .f32 × Vec F S1024x1 .f32) : Vec F S1024x128 .f32 × Vec F S1024x1 .f32 :=
  (k2_pay4 q p prev.2 prev.1, prev.2)

/-- What the two scratch buffers hold after the body at position `n`: (accumulator, squared query lengths). -/
def scAt2 (c : Dev nD) : (n : ℕ) → n < cfg2.N → Vec F S1024x128 .f32 × Vec F S1024x1 .f32
  | 0, hn => scFresh (iblk2 V c 0 ⟨0, hn⟩) (iblk2 V c 1 ⟨0, hn⟩)
  | n + 1, hn =>
    if (n + 1) % 4 = 0 then scFresh (iblk2 V c 0 ⟨n + 1, hn⟩) (iblk2 V c 1 ⟨n + 1, hn⟩)
    else scNext (iblk2 V c 0 ⟨n + 1, hn⟩) (iblk2 V c 1 ⟨n + 1, hn⟩) (scAt2 c n (Nat.lt_of_succ_lt hn))

/-- At a point ≡ 0 (mod 4): a fresh start. -/
theorem scAt2_fresh (c : Dev nD) (t : Fin cfg2.N) (h0 : t.val % 4 = 0) :
    scAt2 V c t.val t.isLt = scFresh (iblk2 V c 0 t) (iblk2 V c 1 t) := by
  obtain ⟨n, hn⟩ := t
  cases n with
  | zero => rfl
  | succ n => exact (if_pos h0)

/-- At any other point: one step from the point before. -/
theorem scAt2_next (c : Dev nD) (t : Fin cfg2.N) (h0 : ¬t.val % 4 = 0) :
    scAt2 V c t.val t.isLt = scNext (iblk2 V c 0 t) (iblk2 V c 1 t) (scAt2 V c (t.val - 1) (Nat.lt_of_le_of_lt (Nat.sub_le _ _) t.isLt)) := by
  obtain ⟨n, hn⟩ := t
  cases n with
  | zero => exact absurd (Nat.zero_mod _) h0
  | succ n => exact (if_neg h0)

/-- The other calls' staging buffers on the core: scoped, no business of this kernel's, each whole at anything. -/
def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f))

/-- The class invariant of this pipeline spelt out: those buffers, the two scratch buffers at anything, the generator register. -/
theorem PhiA2_split (c : Dev nD) :
    (Pipeline.ΦA spec2 c : sProp 𝕄) ⊢ iprop(others2 (F := F) c ∗ (∃ d, owns (c : Thread nD τ) scA fullShare d) ∗ (∃ d, owns (c : Thread nD τ) scQ fullShare d) ∗ (∃ r, prngReg c r)) := by
  unfold Pipeline.ΦA others2; rw [scopedRest2_eq]; simp only [scA, scQ, owns_whole]
  iintro ⟨⟨H1, H2, H3, H4, H5, H6, H7, H8, H9, H10, H11, H12, HA, HQ⟩, Hr⟩
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [HA]; · iexact HA
  isplitl [HQ]; · iexact HQ
  iexact Hr

theorem PhiA2_join (c : Dev nD) :
    iprop(others2 (F := F) c ∗ (∃ d, owns (c : Thread nD τ) scA fullShare d) ∗ (∃ d, owns (c : Thread nD τ) scQ fullShare d) ∗ (∃ r, prngReg c r)) ⊢ (Pipeline.ΦA spec2 c : sProp 𝕄) := by
  unfold Pipeline.ΦA others2; rw [scopedRest2_eq]; simp only [scA, scQ, owns_whole]
  iintro ⟨⟨H1, H2, H3, H4, H5, H6, H7, H8, H9, H10, H11, H12⟩, HA, HQ, Hr⟩
  isplitr [Hr]
  swap; · iexact Hr
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HA]; · iexact HA
  iexact HQ

/-- The region invariant before position `n`. -/
def PhiS2 (c : Dev nD) : (n : ℕ) → n ≤ cfg2.N → sProp 𝕄
  | 0, _ => Pipeline.ΦA spec2 c
  | n + 1, hn => iprop(others2 (F := F) c ∗ owns (c : Thread nD τ) scA fullShare (scAt2 V c n hn).1
      ∗ owns (c : Thread nD τ) scQ fullShare (scAt2 V c n hn).2 ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(others2 (F := F) c ∗ owns (c : Thread nD τ) scA fullShare (scAt2 V c n hn).1
      ∗ owns (c : Thread nD τ) scQ fullShare (scAt2 V c n hn).2 ∗ (∃ r, prngReg c r)) := rfl

theorem PhiS2_pos (c : Dev nD) (n : ℕ) (h : n ≤ cfg2.N) (hz : n ≠ 0) :
    PhiS2 V c n h = iprop(others2 (F := F) c ∗ owns (c : Thread nD τ) scA fullShare (scAt2 V c (n - 1) (by omega)).1
      ∗ owns (c : Thread nD τ) scQ fullShare (scAt2 V c (n - 1) (by omega)).2 ∗ (∃ r, prngReg c r)) := by
  cases n with
  | zero => exact absurd rfl hz
  | succ n => rfl

/-- The pipeline's proof data on core `c`. At a point that does not store the output slab the entry for it is never read. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (scAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay1 (scAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point, by the point's case. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 64 := lt_of_lt_of_eq t.isLt (show cfg2.N = 64 from N_2)
  by_cases h0 : t.val % 4 = 0
  · have h1 : ¬t.val % 4 = 3 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t hc1) (noFlush2_2 t hc1)]
    rw [scAt2_fresh V c t h0]; unfold scFresh; dsimp only
    have hscr : (dat2 V c).Φ t.castSucc ⊢ iprop(others2 (F := F) c ∗ (∃ d, owns (c : Thread nD τ) scA fullShare d)
        ∗ (∃ d, owns (c : Thread nD τ) scQ fullShare d) ∗ (∃ r, prngReg c r)) := by
      by_cases hz : t.val = 0
      · rw [PhiS2_castSucc V c t, PhiS2_zero V c _ _ hz]; exact PhiA2_split c
      · rw [PhiS2_castSucc V c t, PhiS2_pos V c _ _ hz]
        iintro ⟨Ho, HA, HQ, Hr⟩
        isplitl [Ho]; · iexact Ho
        isplitl [HA]; · iexists _; iexact HA
        isplitl [HQ]; · iexists _; iexact HQ
        iexact Hr
    iintro ⟨HΦ, Ho, ⟨%d0, H0⟩, ⟨%d1, H1⟩, ⟨%d2, H2⟩⟩
    ihave HΦ' := hscr $$ HΦ
    icases HΦ' with ⟨Hoth, HA, HQ, Hr⟩
    iapply (sound_kernel2_A c Set.univ (grid2.coords t) _ _ _ _ _ _ _ _ _ _ hc0 hc1 (iblk2 V c 0 t) (iblk2 V c 1 t) ((dat2 V c).before 2 t d2) _)
    isplitl [H0]; · iexact H0
    isplitl [H1]; · iexact H1
    isplitl [H2]; · iexact H2
    isplitl [HA]; · iexact HA
    isplitl [HQ]; · iexact HQ
    iintro ⟨H0, H1, H2, HA, HQ⟩
    isplitl [Hoth HA HQ Hr]
    · isplitl [Hoth]; · iexact Hoth
      isplitl [HA]; · iexact HA
      isplitl [HQ]; · iexact HQ
      iexact Hr
    isplitl [Ho]; · iexact Ho
    isplitl [H0]; · iexact H0
    isplitl [H1]; · iexact H1
    iexists _; iexact H2
  · have hz : t.val ≠ 0 := fun h => h0 (by rw [h])
    rw [PhiS2_castSucc V c t, PhiS2_pos V c _ _ hz]
    rw [scAt2_next V c t h0]; unfold scNext; dsimp only
    have hc0 : ¬cond2_0 (grid2.coords t) := fun h => h0 ((hcond2_0 t).mp h)
    by_cases h1 : t.val % 4 = 3
    · have hc1 : cond2_1 (grid2.coords t) := (hcond2_1 t).mpr h1
      rw [show (dat2 V c).leavesExact 2 t = owns (c : Thread nD τ) (st2_2 t) fullShare ((dat2 V c).after 2 t) from by
        unfold Dat.leavesExact; rw [liveAt2_2 t hc1], after2_2, scAt2_next V c t h0]
      unfold scNext; dsimp only
      iintro ⟨⟨Hoth, HA, HQ, Hr⟩, Ho, ⟨%d0, H0⟩, ⟨%d1, H1⟩, ⟨%d2, H2⟩⟩
      iapply (sound_kernel2_C c Set.univ (grid2.coords t) _ _ _ _ _ _ _ _ _ _ hc0 hc1 (iblk2 V c 0 t) (iblk2 V c 1 t) _ _ _)
      isplitl [H0]; · iexact H0
      isplitl [H1]; · iexact H1
      isplitl [H2]; · iexists _; iexact H2
      isplitl [HA]; · iexact HA
      isplitl [HQ]; · iexact HQ
      iintro ⟨H0, H1, H2, HA, HQ⟩
      isplitl [Hoth HA HQ Hr]
      · isplitl [Hoth]; · iexact Hoth
        isplitl [HA]; · iexact HA
        isplitl [HQ]; · iexact HQ
        iexact Hr
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      iintro ⟨⟨Hoth, HA, HQ, Hr⟩, Ho, ⟨%d0, H0⟩, ⟨%d1, H1⟩, ⟨%d2, H2⟩⟩
      iapply (sound_kernel2_B c Set.univ (grid2.coords t) _ _ _ _ _ _ _ _ _ _ hc0 hc1 (iblk2 V c 0 t) (iblk2 V c 1 t) ((dat2 V c).before 2 t d2) _ _ _)
      isplitl [H0]; · iexact H0
      isplitl [H1]; · iexact H1
      isplitl [H2]; · iexact H2
      isplitl [HA]; · iexact HA
      isplitl [HQ]; · iexact HQ
      iintro ⟨H0, H1, H2, HA, HQ⟩
      isplitl [Hoth HA HQ Hr]
      · isplitl [Hoth]; · iexact Hoth
        isplitl [HA]; · iexact HA
        isplitl [HQ]; · iexact HQ
        iexact Hr
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch buffers' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega)]
  refine .trans ?_ (PhiA2_join c)
  iintro ⟨Ho, HA, HQ, Hr⟩
  isplitl [Ho]; · iexact Ho
  isplitl [HA]; · iexists _; iexact HA
  isplitl [HQ]; · iexists _; iexact HQ
  iexact Hr

end Cert.Kernel.Hand

end
-- ==== Proof.K.Fold.lean ====
/-
  The buffer contents of a core at each boundary of @main, as a fold from the launch memory `m`:
  after the first linear layer's launch its arrays hold what the pipeline's write-backs leave and every other buffer
  what it held; then the six host operations (the pair-mean of the input's rows); then the second linear layer's
  launch; then the similarity kernel's. Each region's proof data is taken at the contents it is entered from.
-/
import proofs.«132651_j60120952209550_1_alg».proof.Proof.K.Lin0
import proofs.«132651_j60120952209550_1_alg».proof.Proof.K.Lin1
import proofs.«132651_j60120952209550_1_alg».proof.Proof.K.Sim2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch: what the first launch is entered from. -/
abbrev W0 : Dev nD → Valuation τ sig (Elt F) := fun c b => m (c, b)
abbrev V0 : (c : Dev nD) → (b : Ref sig .tc) → Buf (Elt F) ((c : Thread nD τ).loc b) := fun c b => W0 m c b

/-- After the first linear layer's launch. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b

/-- After the host operations: what the second linear layer's launch is entered from. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the second linear layer's launch: what the similarity kernel's launch is entered from. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b

/-- After the similarity kernel's launch: what @main returns with. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b

/-- At a region's exit each of its arrays holds what the pipeline leaves and every other buffer what it held at entry. -/
theorem hF0 (c : Dev nD) (w : Fin cfg0.W) : (dat0 (V0 m) c).arrAt w cfg0.N = V1 m c (Pipeline.arrRef spec0 w) := (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
theorem hF1 (c : Dev nD) (w : Fin cfg1.W) : (dat1 (V2 m) c).arrAt w cfg1.N = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
theorem hF2 (c : Dev nD) (w : Fin cfg2.W) : (dat2 (V3 m) c).arrAt w cfg2.N = V4 m c (Pipeline.arrRef spec2 w) := (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

end Cert.Kernel.Hand

end
-- ==== Proof.K.Run.lean ====
/-
  The run of @main: the first linear layer's kernel, the six host operations that average the input's rows in
  pairs, the second linear layer's kernel, the similarity kernel. Launched from any memory with every counter at
  zero, every weakly fair execution on the cores terminates, and at the end each unscoped buffer of a core holds
  what the fold of Fold.lean names for it (its value after the last kernel).

  Between two items a core holds every unscoped buffer whole at that boundary's contents, its generator register at
  some state, and owes nothing. A kernel region takes its windows' arrays out of those buffers at entry and puts
  them back, at what the pipeline's write-backs leave, at exit; the host stretch runs over the buffers as they are.
  The first two kernels keep the class invariant between grid points; the similarity kernel keeps its own (its two
  scratch buffers at named contents), which the class invariant enters at the first point and leaves after the last.

  Nothing here depends on the float instance.
-/
import proofs.«132651_j60120952209550_1_alg».proof.Proof.K.Fold
import proofs.«132651_j60120952209550_1_alg».proof.Proof.Gen.Kernel.Regions
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading the fold back

A buffer that an item does not write holds after it what it held before: a kernel changes only its output window's
array (an input window's array comes back as it was entered), the host stretch only the six buffers it defines. -/

/-- An unscoped buffer of the core is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The input is the first kernel's first input window: it leaves that kernel as launched. -/
theorem V1_main_arg0 (c : Dev nD) : V1 m c main_arg0 = m ((c : Thread nD τ).loc main_arg0) :=
  calc W1 m c (Proc.devRef .tc main_arg0)
    _ = (dat0 (V0 m) c).A 0 := (W1_arr m c 0).trans ((dat0 (V0 m) c).arrAt_in 0 rfl _)
    _ = m ((c : Thread nD τ).loc main_arg0) := A_eq0 (V0 m) c 0

/-- The weight is the first kernel's second input window and no host operation writes it: the second kernel finds it as launched. -/
theorem V2_main_arg1 (c : Dev nD) : V2 m c main_arg1 = m ((c : Thread nD τ).loc main_arg1) :=
  calc W2 m c (Proc.devRef .tc main_arg1)
    _ = W1 m c (Proc.devRef .tc main_arg1) := StableHlo.after_of_writes_sub hostOps1 _ hostOps1_writes (by decide)
    _ = (dat0 (V0 m) c).A 1 := (W1_arr m c 1).trans ((dat0 (V0 m) c).arrAt_in 1 rfl _)
    _ = m ((c : Thread nD τ).loc main_arg1) := A_eq0 (V0 m) c 1

/-- The bias likewise (the first kernel's third input window). -/
theorem V2_main_arg2 (c : Dev nD) : V2 m c main_arg2 = m ((c : Thread nD τ).loc main_arg2) :=
  calc W2 m c (Proc.devRef .tc main_arg2)
    _ = W1 m c (Proc.devRef .tc main_arg2) := StableHlo.after_of_writes_sub hostOps1 _ hostOps1_writes (by decide)
    _ = (dat0 (V0 m) c).A 2 := (W1_arr m c 2).trans ((dat0 (V0 m) c).arrAt_in 2 rfl _)
    _ = m ((c : Thread nD τ).loc main_arg2) := A_eq0 (V0 m) c 2

/-- The first layer's output reaches the similarity kernel as the first kernel left it: no host operation writes it and
    it is no window of the second kernel. -/
theorem V3_main_v0 (c : Dev nD) : V3 m c main_v0 = (dat0 (V0 m) c).arrAt 3 cfg0.N :=
  calc W3 m c (Proc.devRef .tc main_v0)
    _ = W2 m c (Proc.devRef .tc main_v0) := W3_of_ne m c main_v0 (by decide)
    _ = W1 m c (Proc.devRef .tc main_v0) := StableHlo.after_of_writes_sub hostOps1 _ hostOps1_writes (by decide)
    _ = (dat0 (V0 m) c).arrAt 3 cfg0.N := W1_arr m c 3

/-- The second layer's output as the second kernel leaves it. -/
theorem V3_main_v5 (c : Dev nD) : V3 m c main_v5 = (dat1 (V2 m) c).arrAt 3 cfg1.N := W3_arr m c 3

/-- At the end the input holds its launch contents: the last two kernels do not touch it, no host operation writes
    it, the first kernel only reads it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_writes_sub hostOps1 _ hostOps1_writes (by decide)
    _ = m ((c : Thread nD τ).loc main_arg0) := V1_main_arg0 m c

/-- The weight at the end: the similarity kernel does not touch it, the second kernel only reads it (its second input window). -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = (dat1 (V2 m) c).A 1 := (W3_arr m c 1).trans ((dat1 (V2 m) c).arrAt_in 1 rfl _)
    _ = V2 m c main_arg1 := A_eq1 (V2 m) c 1
    _ = m ((c : Thread nD τ).loc main_arg1) := V2_main_arg1 m c

/-- The bias at the end (the second kernel's third input window). -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = (dat1 (V2 m) c).A 2 := (W3_arr m c 2).trans ((dat1 (V2 m) c).arrAt_in 2 rfl _)
    _ = V2 m c main_arg2 := A_eq1 (V2 m) c 2
    _ = m ((c : Thread nD τ).loc main_arg2) := V2_main_arg2 m c

/-- The second layer's output at the end: the similarity kernel only reads it (its first input window). -/
theorem W4_main_v5 (c : Dev nD) : W4 m c (Proc.devRef .tc main_v5) = (dat1 (V2 m) c).arrAt 3 cfg1.N :=
  calc W4 m c (Proc.devRef .tc main_v5)
    _ = (dat2 (V3 m) c).A 0 := (W4_arr m c 0).trans ((dat2 (V3 m) c).arrAt_in 0 rfl _)
    _ = V3 m c main_v5 := A_eq2 (V3 m) c 0
    _ = (dat1 (V2 m) c).arrAt 3 cfg1.N := V3_main_v5 m c

/-- The result at the end: what the similarity kernel's write-backs leave in its output window's array. -/
theorem W4_main_v6 (c : Dev nD) : W4 m c (Proc.devRef .tc main_v6) = (dat2 (V3 m) c).arrAt 2 cfg2.N := W4_arr m c 2

/-! ## The proof data of the three pipelines and the thread state -/

/-- Each pipeline's proof data at the contents its kernel is entered from. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
abbrev 𝒱₀ : Variants := Variants.none
/-- No core waits on another: no level is assigned. -/
abbrev L : GSem nD τ sig → Finset Unit := fun _ => ∅
abbrev lv : GSem nD τ sig → Unit → ℕ := fun _ _ => 0
/-- What a core holds beside its buffers at every boundary: its generator register at some state, and owing nothing. -/
abbrev R (c : Dev nD) : sProp 𝕄 := iprop((∃ r, prngReg c r) ∗ ∃ W, owes (c : Thread nD τ) (0 : CellTallies nD τ sig Unit) W)
/-- A stretch of host operations run over the unscoped buffers from the contents W; it leaves them at the contents
    the operations make of W, the rest of the state untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The state after the last kernel, what is owed apart: every unscoped buffer at W4, the generator register at some state. -/
abbrev Tₙ (c : Dev nD) : sProp 𝕄 := iprop(StableHlo.held (c : Thread nD τ) (Pipeline.ucRefs τ sig) (W4 m c) ∗ ∃ r, prngReg c r)

/-! ## The three kernels as segments -/

-- a library lemma stated over the pinned configuration meets the printed one only if unification may unfold plain
-- definitions inside a metavariable's type
set_option backward.isDefEq.respectTransparency.types false in
/-- The first linear layer's kernel: entered from the launch contents W0, left at W1. The class invariant takes the
    generator register in and hands it back; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second linear layer's kernel: entered from W2 (what the host operations leave), left at W3. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The similarity kernel: entered from W3, left at W4, which is what @main returns with. Its invariant between grid
    points is its own (the two scratch buffers at named contents): the class invariant, made at entry, is that
    invariant before the first point, and the invariant after the last point gives the class's back. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V3 m) c).Φ 0 from rfl]
    refine .trans ?_ (hin2 (V3 m) c)
    unfold Pipeline.ΦA
    iintro ⟨Hp, -, Hr⟩
    isplitl [Hr]; · iexact Hr
    iexact Hp
  hout c := by
    rw [Pipeline.ownSems0_none, show (pdats m 2 c).Φ (Fin.last _) = (dat2 (V3 m) c).Φ (Fin.last cfg2.N) from rfl]
    refine (hout2 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four items, and the launch -/

/-- The first kernel, the host stretch from what it leaves, the second kernel, the similarity kernel. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .region (reg2 m) ]
/-- @main is the run of these items: it is the chain of their programs, and the items' run unfolds to the same chain. -/
theorem main_run (c : Dev nD) : main (F := F) c = Pipeline.Seg.run (segs m) := (main_chain c).trans (by chain_rfl)

-- the launch theorem's implicit arguments come from unifying its conclusion with the statement, which takes unfolding
-- plain definitions inside a metavariable's type
set_option backward.isDefEq.respectTransparency.types false in
/-- THE RUN. From any memory with every counter at zero and any generator registers, every weakly fair execution of
    @main on the cores terminates without fault, and in every final memory each unscoped buffer of a core holds what
    W4 names for it. Each item is entered from exactly what the one before it left, so the states chain by
    reflexivity; the launch deals the first state (the buffers at the launch memory, the register, nothing owed), and
    the last state is read against the final memory buffer by buffer. -/
theorem run : θ_run defs (onTc (τ := τ) (main (F := F))) ⟨m, fun _ => 0, ρ⟩
    (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Hand

end
-- ==== Proof.KI.Lin0.lean ====
/-
  The first linear layer's launch (custom_call 0), at the buffer contents `V` the region is entered from.
  One grid point (b, l) stages a 1024-row slab of the input, the whole weight matrix and the bias, and the body
  stores into the output slab the product of the slab with the transposed weights plus the bias row: one store that
  covers the staging buffer. Here: each window's block at a point, what the body leaves in the output buffer, the
  body's triple, the pipeline's proof data and the body obligation, at any float instance.
-/
import proofs.«132651_j60120952209550_1_alg».proof.Proof.Gen.KernelIdeal.Launch
import proofs.«132651_j60120952209550_1_alg».proof.Proof.Gen.KernelIdeal.Skeleton
import proofs.«132651_j60120952209550_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: a window that
    is not fetched at a point has not moved since it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole slab, the whole weight matrix, the whole bias: the rectangles the body reads and writes. -/
abbrev rx0 : Rect S1x1024x128 := Rect.unit (s := S1x1024x128) ![0, 0, 0] S1x1024x128.size inb_S1x1024x128_S1x1024x128_0_0_0
abbrev rw0 : Rect S128x128 := Rect.unit (s := S128x128) ![0, 0] S128x128.size inb_S128x128_S128x128_0_0
abbrev rb0 : Rect S128 := Rect.unit (s := S128) ![0] S128.size inb_S128_S128_0

/-- The output slab's staging buffer after the body, from the three input blocks: its one store as a piece. -/
def out0_3 (x0 : Vec F S1x1024x128 .f32) (x1 : Vec F S128x128 .f32) (x2 : Vec F S128 .f32) : Vec F S1x1024x128 .f32 :=
  View.canon [⟨rx0, k0_pay1 (View.ld x0 rx0) (View.ld x1 rw0) (View.ld x2 rb0)⟩]

/-- That store covers the buffer. -/
theorem cover0_3 (p0 : Vec F S1x1024x128 .f32) (y : S1x1024x128.Idx) :
    ∃ pc ∈ ([⟨rx0, p0⟩] : List (View.Piece (Elt F) S1x1024x128 .f32)), y ∈ pc.1.set :=
  View.cover_of_tiled [⟨rx0, p0⟩] S1x1024x128.size (by rfl) y

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords)
    (arg2 : Memref sig .tc .vmem S1x1024x128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S1x1024x128 .f32) (harg5 : arg5.IsWhole)
    (x0 : Vec F S1x1024x128 .f32) (x1 : Vec F S128x128 .f32) (x2 : Vec F S128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Lin1.lean ====
/-
  The second linear layer's launch (custom_call 1), at the buffer contents `V` the region is entered from.
  One grid point (b, l) stages a 1024-row slab of the input, the whole weight matrix and the bias, and the body
  stores into the output slab the product of the slab with the transposed weights plus the bias row: one store that
  covers the staging buffer. Here: each window's block at a point, what the body leaves in the output buffer, the
  body's triple, the pipeline's proof data and the body obligation, at any float instance.
-/
import proofs.«132651_j60120952209550_1_alg».proof.Proof.Gen.KernelIdeal.Launch
import proofs.«132651_j60120952209550_1_alg».proof.Proof.Gen.KernelIdeal.Skeleton
import proofs.«132651_j60120952209550_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: a window that
    is not fetched at a point has not moved since it was. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole slab, the whole weight matrix, the whole bias: the rectangles the body reads and writes. -/
abbrev rx1 : Rect S1x1024x128 := Rect.unit (s := S1x1024x128) ![0, 0, 0] S1x1024x128.size inb_S1x1024x128_S1x1024x128_0_0_0
abbrev rw1 : Rect S128x128 := Rect.unit (s := S128x128) ![0, 0] S128x128.size inb_S128x128_S128x128_0_0
abbrev rb1 : Rect S128 := Rect.unit (s := S128) ![0] S128.size inb_S128_S128_0

/-- The output slab's staging buffer after the body, from the three input blocks: its one store as a piece. -/
def out1_3 (x0 : Vec F S1x1024x128 .f32) (x1 : Vec F S128x128 .f32) (x2 : Vec F S128 .f32) : Vec F S1x1024x128 .f32 :=
  View.canon [⟨rx1, k1_pay1 (View.ld x0 rx1) (View.ld x1 rw1) (View.ld x2 rb1)⟩]

/-- That store covers the buffer. -/
theorem cover1_3 (p0 : Vec F S1x1024x128 .f32) (y : S1x1024x128.Idx) :
    ∃ pc ∈ ([⟨rx1, p0⟩] : List (View.Piece (Elt F) S1x1024x128 .f32)), y ∈ pc.1.set :=
  View.cover_of_tiled [⟨rx1, p0⟩] S1x1024x128.size (by rfl) y

set_option maxHeartbeats 1000000 in
/-- The body on whole staging memrefs, the inputs' at contents `x0 x1 x2` and the output's at anything, runs to the
    continuation holding the inputs' as they were and the output's at `out1_3` of them. -/
theorem sound_kernel1 (c : Dev nD) (E : Set ℕ) (i : grid1.Coords)
    (arg2 : Memref sig .tc .vmem S1x1024x128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S1x1024x128 .f32) (harg5 : arg5.IsWhole)
    (x0 : Vec F S1x1024x128 .f32) (x1 : Vec F S128x128 .f32) (x2 : Vec F S128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__linear_kernel i arg2 harg2 arg3 harg3 arg4 harg4 arg5 harg5) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer at its block and the output's at `out1_3` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Sim2Cond.lean ====
/-
  The similarity kernel's launch (custom_call 2): what its grid decides.
  A grid point is (b, qi, ki); the body's first conditional is taken where ki = 0 (it resets the accumulator and
  stores the query rows' squared lengths), its second where ki = 3 (it copies the accumulator out). Over the 64 points
  in grid order these are the points ≡ 0 and ≡ 3 (mod 4). The output window is stored only at the latter, and is
  idle, and not written back, at the others.
-/
import proofs.«132651_j60120952209550_1_alg».proof.Proof.Gen.KernelIdeal.Launch
import proofs.«132651_j60120952209550_1_alg».proof.Proof.Gen.KernelIdeal.Skeleton
import proofs.«132651_j60120952209550_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test, from the grid coordinates. -/
abbrev cond2_0 (i : grid2.Coords) : Prop :=
  (Scalar.cmpi .ne (Scalar.extui (Scalar.cmpi .eq (BitVec.ofNat 32 (i 2).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's test. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Where the second conditional fails the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where it holds the window is live. -/
theorem liveAt2_2 : ∀ t : Fin cfg2.N, cond2_1 (grid2.coords t) → cfg2.idle 2 (grid2.coords t) = false := by decide +kernel

/-- The whole slab, the whole accumulator, the whole column of squared lengths. -/
abbrev rs2 : Rect S1x1024x128 := Rect.unit (s := S1x1024x128) ![0, 0, 0] S1x1024x128.size inb_S1x1024x128_S1x1024x128_0_0_0
abbrev ra2 : Rect S1024x128 := Rect.unit (s := S1024x128) ![0, 0] S1024x128.size inb_S1024x128_S1024x128_0_0
abbrev rq2 : Rect S1024x1 := Rect.unit (s := S1024x1) ![0, 0] S1024x1.size inb_S1024x1_S1024x1_0_0

/-- The two scratch operands: whole scoped buffers of the kernel's own. -/
abbrev scA : Memref sig .tc .vmem S1024x128 .f32 := Memref.whole cc2_scratch0
abbrev scQ : Memref sig .tc .vmem S1024x1 .f32 := Memref.whole cc2_scratch1

end Cert.KernelIdeal.Hand

end
-- ==== Proof.KI.Sim2Runs.lean ====
/-
  The similarity kernel's body on whole staging memrefs and scratch buffers, in its three control cases.
  With q, p the query and key slabs, a the accumulator and s the column of squared query lengths:
  at a first key block (ki = 0) the body zeroes the accumulator, stores s := ‖q_r‖², then accumulates;
  at a middle block it only accumulates, a := step q p s a; at the last block (ki = 3) it accumulates and copies the
  accumulator into the output slab. Elsewhere the output slab is handed back as it was found.
  `step` is the skeleton's payload of the accumulating store, `norms` that of the squared lengths.
-/
import proofs.«132651_j60120952209550_1_alg».proof.Proof.KI.Sim2Cond
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer rectangle are zero. -/
theorem hz2 : (![0, 0] : Fin 2 → ℕ) = fun _ => 0 := by funext a; fin_cases a <;> rfl
theorem hz3 : (![0, 0, 0] : Fin 3 → ℕ) = fun _ => 0 := by funext a; fin_cases a <;> rfl

/-- Every index lies in a whole-buffer rectangle. -/
theorem mem_unit_zero {S : Shape} {off : Fin S.rank → ℕ} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- What a list of stores whose LAST is a whole-buffer store leaves, read back: that store's payload. -/
theorem read_writes_last_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), mem_unit_zero h inb y⟩)).trans
    (View.canon_cons_unit_zero h inb w L)

set_option maxHeartbeats 2000000 in
/-- A middle key block: the accumulator takes one step, everything else is as it was. -/
theorem sound_kernel2_B (c : Dev nD) (E : Set ℕ) (i : grid2.Coords)
    (arg3 : Memref sig .tc .vmem S1x1024x128 .f32) (harg3 : arg3.IsWhole) (arg4 : Memref sig .tc .vmem S1x1024x128 .f32) (harg4 : arg4.IsWhole)
    (arg5 : Memref sig .tc .vmem S1x1024x128 .f32) (harg5 : arg5.IsWhole) (arg6 : Memref sig .tc .vmem S1024x128 .f32) (harg6 : arg6.IsWhole)
    (arg7 : Memref sig .tc .vmem S1024x1 .f32) (harg7 : arg7.IsWhole) (hc0 : ¬cond2_0 i) (hc1 : ¬cond2_1 i)
    (q p o : Vec F S1x1024x128 .f32) (a : Vec F S1024x128 .f32) (s : Vec F S1024x1 .f32) (K : PUnit → sProp 𝕄) :
    iprop(owns (c : Thread nD τ) arg3 fullShare q ∗ owns (c : Thread nD τ) arg4 fullShare p ∗ owns (c : Thread nD τ) arg5 fullShare o
        ∗ owns (c : Thread nD τ) arg6 fullShare a ∗ owns (c : Thread nD τ) arg7 fullShare s
        ∗ (iprop(owns (c : Thread nD τ) arg3 fullShare q ∗ owns (c : Thread nD τ) arg4 fullShare p ∗ owns (c : Thread nD τ) arg5 fullShare o
            ∗ owns (c : Thread nD τ) arg6 fullShare (k2_pay4 q p s a) ∗ owns (c : Thread nD τ) arg7 fullShare s) -∗ K ⟨⟩))
      ⊢ wp frame (wpE (defs₀ (F := F)) Variants.none c none) E (cc2__sim_kernel i arg3 harg3 arg4 harg4 arg5 harg5 arg6 harg6 arg7 harg7) K := by
  simp only [cc2__sim_kernel_eq_skeleton]; unfold cc2__sim_kernel_skel
  simp only [k2_part1_eq_skeleton]
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try sl_unfold_words
    rw [read_writes_last_whole (S := S1024x128) _ _ hz2]
    simp only [View.readAt_eq_ld, View.ld_unit_zero (S := S1024x128) hz2, View.ld_unit_zero (S := S1024x1) hz2, View.ld_unit_zero (S := S1x1024x128) hz3, View.readCov_unit_zero (S := S1024x128) _ hz2, View.readCov_unit_zero (S := S1024x1) _ hz2]
  iexists f7; isplitr; · ipureintro; rfl
  iexact H7

set_option maxHeartbeats 2000000 in
/-- The last key block: the accumulator takes one step and is copied into the output slab. -/
theorem sound_kernel2_C (c : Dev nD) (E : Set ℕ) (i : grid2.Coords)
    (arg3 : Memref sig .tc .vmem S1x1024x128 .f32) (harg3 : arg3.IsWhole) (arg4 : Memref sig .tc .vmem S1x1024x128 .f32) (harg4 : arg4.IsWhole)
    (arg5 : Memref sig .tc .vmem S1x1024x128 .f32) (harg5 : arg5.IsWhole) (arg6 : Memref sig .tc .vmem S1024x128 .f32) (harg6 : arg6.IsWhole)
    (arg7 : Memref sig .tc .vmem S1024x1 .f32) (harg7 : arg7.IsWhole) (hc0 : ¬cond2_0 i) (hc1 : cond2_1 i)
    (q p : Vec F S1x1024x128 .f32) (a : Vec F S1024x128 .f32) (s : Vec F S1024x1 .f32) (K : PUnit → sProp 𝕄) :
    iprop(owns (c : Thread nD τ) arg3 fullShare q ∗ owns (c : Thread nD τ) arg4 fullShare p ∗ (∃ d, owns (c : Thread nD τ) arg5 fullShare d)
        ∗ owns (c : Thread nD τ) arg6 fullShare a ∗ owns (c : Thread nD τ) arg7 fullShare s
        ∗ (iprop(owns (c : Thread nD τ) arg3 fullShare q ∗ owns (c : Thread nD τ) arg4 fullShare p ∗ owns (c : Thread nD τ) arg5 fullShare (k2_pay1 (k2_pay4 q p s a))
            ∗ owns (c : Thread nD τ) arg6 fullShare (k2_pay4 q p s a) ∗ owns (c : Thread nD τ) arg7 fullShare s) -∗ K ⟨⟩))
      ⊢ wp frame (wpE (defs₀ (F := F)) Variants.none c none) E (cc2__sim_kernel i arg3 harg3 arg4 harg4 arg5 harg5 arg6 harg6 arg7 harg7) K := by
  simp only [cc2__sim_kernel_eq_skeleton]; unfold cc2__sim_kernel_skel
  simp only [k2_part1_eq_skeleton]
  unfold owns
  iintro ⟨⟨%f3, %hf3, H3⟩, ⟨%f4, %hf4, H4⟩, ⟨%d5, %f5, -, H5⟩, ⟨%f6, %hf6, H6⟩, ⟨%f7, %hf7, H7⟩, Hk⟩
  subst hf3; subst hf4; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try sl_unfold_words
    rw [read_writes_last_whole (S := S1x1024x128) _ _ hz3]
    simp only [View.readAt_eq_ld, View.ld_unit_zero (S := S1024x128) hz2, View.ld_unit_zero (S := S1024x1) hz2, View.ld_unit_zero (S := S1x1024x128) hz3, View.readCov_unit_zero (S := S1024x128) _ hz2, View.readCov_unit_zero (S := S1024x1) _ hz2]
  isplitl [H6]
  · iexists _; isplitr
    swap; · iexact H6
    ipureintro
    try sl_unfold_words
    rw [read_writes_last_whole (S := S1024x128) _ _ hz2]
    simp only [View.readAt_eq_ld, View.ld_unit_zero (S := S1024x128) hz2, View.ld_unit_zero (S := S1024x1) hz2, View.ld_unit_zero (S := S1x1024x128) hz3, View.readCov_unit_zero (S := S1024x128) _ hz2, View.readCov_unit_zero (S := S1024x1) _ hz2]
  iexists f7; isplitr; · ipureintro; rfl
  iexact H7

set_option maxHeartbeats 2000000 in
/-- A first key block: the accumulator is zeroed, the squared query lengths stored, then one step taken. -/
theorem sound_kernel2_A (c : Dev nD) (E : Set ℕ) (i : grid2.Coords)
    (arg3 : Memref sig .tc .vmem S1x1024x128 .f32) (harg3 : arg3.IsWhole) (arg4 : Memref sig .tc .vmem S1x1024x128 .f32) (harg4 : arg4.IsWhole)
    (arg5 : Memref sig .tc .vmem S1x1024x128 .f32) (harg5 : arg5.IsWhole) (arg6 : Memref sig .tc .vmem S1024x128 .f32) (harg6 : arg6.IsWhole)
    (arg7 : Memref sig .tc .vmem S1024x1 .f32) (harg7 : arg7.IsWhole) (hc0 : cond2_0 i) (hc1 : ¬cond2_1 i)
    (q p o : Vec F S1x1024x128 .f32) (K : PUnit → sProp 𝕄) :
    iprop(owns (c : Thread nD τ) arg3 fullShare q ∗ owns (c : Thread nD τ) arg4 fullShare p ∗ owns (c : Thread nD τ) arg5 fullShare o
        ∗ (∃ d, owns (c : Thread nD τ) arg6 fullShare d) ∗ (∃ d, owns (c : Thread nD τ) arg7 fullShare d)
        ∗ (iprop(owns (c : Thread nD τ) arg3 fullShare q ∗ owns (c : Thread nD τ) arg4 fullShare p ∗ owns (c : Thread nD τ) arg5 fullShare o
            ∗ owns (c : Thread nD τ) arg6 fullShare (k2_pay4 q p (k2_pay3 q) k2_pay2) ∗ owns (c : Thread nD τ) arg7 fullShare (k2_pay3 q)) -∗ K ⟨⟩))
      ⊢ wp frame (wpE (defs₀ (F := F)) Variants.none c none) E (cc2__sim_kernel i arg3 harg3 arg4 harg4 arg5 harg5 arg6 harg6 arg7 harg7) K := by
  simp only [cc2__sim_kernel_eq_skeleton]; unfold cc2__sim_kernel_skel
  simp only [k2_part1_eq_skeleton]
  unfold owns
  iintro ⟨⟨%f3, %hf3, H3⟩, ⟨%f4, %hf4, H4⟩, ⟨%f5, %hf5, H5⟩, ⟨%d6, %f6, -, H6⟩, ⟨%d7, %f7, -, H7⟩, Hk⟩
  subst hf3; subst hf4; subst hf5
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try sl_unfold_words
    rw [read_writes_last_whole (S := S1024x128) _ _ hz2]
    simp only [View.readAt_eq_ld, View.ld_unit_zero (S := S1024x128) hz2, View.ld_unit_zero (S := S1024x1) hz2, View.ld_unit_zero (S := S1x1024x128) hz3, View.readCov_unit_zero (S := S1024x128) _ hz2, View.readCov_unit_zero (S := S1024x1) _ hz2]
  iexists _; isplitr
  swap; · iexact H7
  ipureintro
  try sl_unfold_words
  rw [read_writes_last_whole (S := S1024x1) _ _ hz2]
  simp only [View.readAt_eq_ld, View.ld_unit_zero (S := S1024x128) hz2, View.ld_unit_zero (S := S1024x1) hz2, View.ld_unit_zero (S := S1x1024x128) hz3, View.readCov_unit_zero (S := S1024x128) _ hz2, View.readCov_unit_zero (S := S1024x1) _ hz2]

end Cert.KernelIdeal.Hand

end
-- ==== Proof.KI.Sim2.lean ====
/-
  The similarity kernel's launch (custom_call 2), at the buffer contents `V` the region is entered from: the
  pipeline's proof data and the body obligation.
  The 64 grid points run in order (b, qi, ki), ki fastest. Between points the kernel keeps two scratch buffers: the
  accumulator a [1024,128] and the column s [1024,1] of the current query slab's squared row lengths. After point n they
  hold (`scAt2`): at a point ≡ 0 (mod 4), one step from the zero accumulator with s freshly computed from the query slab;
  at any other point, one step from what the point before left, s unchanged. The output slab's buffer is written, with
  the accumulator, only at the points ≡ 3 (mod 4), where the pipeline writes it back.
  The invariant before a point: before the first, every scoped buffer at anything; afterwards the two scratch buffers at
  `scAt2` of the point before, the other calls' staging buffers at anything, the generator register at some state.
-/
import proofs.«132651_j60120952209550_1_alg».proof.Proof.KI.Sim2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- One step from a fresh start: the accumulator zeroed, the squared lengths computed from the query slab `q`. -/
def scFresh (q p : Vec F S1x1024x128 .f32) : Vec F S1024x128 .f32 × Vec F S1024x1 .f32 :=
  (k2_pay4 q p (k2_pay3 q) k2_pay2, k2_pay3 q)
/-- One step from what the point before left. -/
def scNext (q p : Vec F S1x1024x128 .f32) (prev : Vec F S1024x128 .f32 × Vec F S1024x1 .f32) : Vec F S1024x128 .f32 × Vec F S1024x1 .f32 :=
  (k2_pay4 q p prev.2 prev.1, prev.2)

/-- What the two scratch buffers hold after the body at position `n`: (accumulator, squared query lengths). -/
def scAt2 (c : Dev nD) : (n : ℕ) → n < cfg2.N → Vec F S1024x128 .f32 × Vec F S1024x1 .f32
  | 0, hn => scFresh (iblk2 V c 0 ⟨0, hn⟩) (iblk2 V c 1 ⟨0, hn⟩)
  | n + 1, hn =>
    if (n + 1) % 4 = 0 then scFresh (iblk2 V c 0 ⟨n + 1, hn⟩) (iblk2 V c 1 ⟨n + 1, hn⟩)
    else scNext (iblk2 V c 0 ⟨n + 1, hn⟩) (iblk2 V c 1 ⟨n + 1, hn⟩) (scAt2 c n (Nat.lt_of_succ_lt hn))

/-- At a point ≡ 0 (mod 4): a fresh start. -/
theorem scAt2_fresh (c : Dev nD) (t : Fin cfg2.N) (h0 : t.val % 4 = 0) :
    scAt2 V c t.val t.isLt = scFresh (iblk2 V c 0 t) (iblk2 V c 1 t) := by
  obtain ⟨n, hn⟩ := t
  cases n with
  | zero => rfl
  | succ n => exact (if_pos h0)

/-- At any other point: one step from the point before. -/
theorem scAt2_next (c : Dev nD) (t : Fin cfg2.N) (h0 : ¬t.val % 4 = 0) :
    scAt2 V c t.val t.isLt = scNext (iblk2 V c 0 t) (iblk2 V c 1 t) (scAt2 V c (t.val - 1) (Nat.lt_of_le_of_lt (Nat.sub_le _ _) t.isLt)) := by
  obtain ⟨n, hn⟩ := t
  cases n with
  | zero => exact absurd (Nat.zero_mod _) h0
  | succ n => exact (if_neg h0)

/-- The other calls' staging buffers on the core: scoped, no business of this kernel's, each whole at anything. -/
def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f))

/-- The class invariant of this pipeline spelt out: those buffers, the two scratch buffers at anything, the generator register. -/
theorem PhiA2_split (c : Dev nD) :
    (Pipeline.ΦA spec2 c : sProp 𝕄) ⊢ iprop(others2 (F := F) c ∗ (∃ d, owns (c : Thread nD τ) scA fullShare d) ∗ (∃ d, owns (c : Thread nD τ) scQ fullShare d) ∗ (∃ r, prngReg c r)) := by
  unfold Pipeline.ΦA others2; rw [scopedRest2_eq]; simp only [scA, scQ, owns_whole]
  iintro ⟨⟨H1, H2, H3, H4, H5, H6, H7, H8, H9, H10, H11, H12, HA, HQ⟩, Hr⟩
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [HA]; · iexact HA
  isplitl [HQ]; · iexact HQ
  iexact Hr

theorem PhiA2_join (c : Dev nD) :
    iprop(others2 (F := F) c ∗ (∃ d, owns (c : Thread nD τ) scA fullShare d) ∗ (∃ d, owns (c : Thread nD τ) scQ fullShare d) ∗ (∃ r, prngReg c r)) ⊢ (Pipeline.ΦA spec2 c : sProp 𝕄) := by
  unfold Pipeline.ΦA others2; rw [scopedRest2_eq]; simp only [scA, scQ, owns_whole]
  iintro ⟨⟨H1, H2, H3, H4, H5, H6, H7, H8, H9, H10, H11, H12⟩, HA, HQ, Hr⟩
  isplitr [Hr]
  swap; · iexact Hr
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HA]; · iexact HA
  iexact HQ

/-- The region invariant before position `n`. -/
def PhiS2 (c : Dev nD) : (n : ℕ) → n ≤ cfg2.N → sProp 𝕄
  | 0, _ => Pipeline.ΦA spec2 c
  | n + 1, hn => iprop(others2 (F := F) c ∗ owns (c : Thread nD τ) scA fullShare (scAt2 V c n hn).1
      ∗ owns (c : Thread nD τ) scQ fullShare (scAt2 V c n hn).2 ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(others2 (F := F) c ∗ owns (c : Thread nD τ) scA fullShare (scAt2 V c n hn).1
      ∗ owns (c : Thread nD τ) scQ fullShare (scAt2 V c n hn).2 ∗ (∃ r, prngReg c r)) := rfl

theorem PhiS2_pos (c : Dev nD) (n : ℕ) (h : n ≤ cfg2.N) (hz : n ≠ 0) :
    PhiS2 V c n h = iprop(others2 (F := F) c ∗ owns (c : Thread nD τ) scA fullShare (scAt2 V c (n - 1) (by omega)).1
      ∗ owns (c : Thread nD τ) scQ fullShare (scAt2 V c (n - 1) (by omega)).2 ∗ (∃ r, prngReg c r)) := by
  cases n with
  | zero => exact absurd rfl hz
  | succ n => rfl

/-- The pipeline's proof data on core `c`. At a point that does not store the output slab the entry for it is never read. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (scAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay1 (scAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point, by the point's case. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 64 := lt_of_lt_of_eq t.isLt (show cfg2.N = 64 from N_2)
  by_cases h0 : t.val % 4 = 0
  · have h1 : ¬t.val % 4 = 3 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t hc1) (noFlush2_2 t hc1)]
    rw [scAt2_fresh V c t h0]; unfold scFresh; dsimp only
    have hscr : (dat2 V c).Φ t.castSucc ⊢ iprop(others2 (F := F) c ∗ (∃ d, owns (c : Thread nD τ) scA fullShare d)
        ∗ (∃ d, owns (c : Thread nD τ) scQ fullShare d) ∗ (∃ r, prngReg c r)) := by
      by_cases hz : t.val = 0
      · rw [PhiS2_castSucc V c t, PhiS2_zero V c _ _ hz]; exact PhiA2_split c
      · rw [PhiS2_castSucc V c t, PhiS2_pos V c _ _ hz]
        iintro ⟨Ho, HA, HQ, Hr⟩
        isplitl [Ho]; · iexact Ho
        isplitl [HA]; · iexists _; iexact HA
        isplitl [HQ]; · iexists _; iexact HQ
        iexact Hr
    iintro ⟨HΦ, Ho, ⟨%d0, H0⟩, ⟨%d1, H1⟩, ⟨%d2, H2⟩⟩
    ihave HΦ' := hscr $$ HΦ
    icases HΦ' with ⟨Hoth, HA, HQ, Hr⟩
    iapply (sound_kernel2_A c Set.univ (grid2.coords t) _ _ _ _ _ _ _ _ _ _ hc0 hc1 (iblk2 V c 0 t) (iblk2 V c 1 t) ((dat2 V c).before 2 t d2) _)
    isplitl [H0]; · iexact H0
    isplitl [H1]; · iexact H1
    isplitl [H2]; · iexact H2
    isplitl [HA]; · iexact HA
    isplitl [HQ]; · iexact HQ
    iintro ⟨H0, H1, H2, HA, HQ⟩
    isplitl [Hoth HA HQ Hr]
    · isplitl [Hoth]; · iexact Hoth
      isplitl [HA]; · iexact HA
      isplitl [HQ]; · iexact HQ
      iexact Hr
    isplitl [Ho]; · iexact Ho
    isplitl [H0]; · iexact H0
    isplitl [H1]; · iexact H1
    iexists _; iexact H2
  · have hz : t.val ≠ 0 := fun h => h0 (by rw [h])
    rw [PhiS2_castSucc V c t, PhiS2_pos V c _ _ hz]
    rw [scAt2_next V c t h0]; unfold scNext; dsimp only
    have hc0 : ¬cond2_0 (grid2.coords t) := fun h => h0 ((hcond2_0 t).mp h)
    by_cases h1 : t.val % 4 = 3
    · have hc1 : cond2_1 (grid2.coords t) := (hcond2_1 t).mpr h1
      rw [show (dat2 V c).leavesExact 2 t = owns (c : Thread nD τ) (st2_2 t) fullShare ((dat2 V c).after 2 t) from by
        unfold Dat.leavesExact; rw [liveAt2_2 t hc1], after2_2, scAt2_next V c t h0]
      unfold scNext; dsimp only
      iintro ⟨⟨Hoth, HA, HQ, Hr⟩, Ho, ⟨%d0, H0⟩, ⟨%d1, H1⟩, ⟨%d2, H2⟩⟩
      iapply (sound_kernel2_C c Set.univ (grid2.coords t) _ _ _ _ _ _ _ _ _ _ hc0 hc1 (iblk2 V c 0 t) (iblk2 V c 1 t) _ _ _)
      isplitl [H0]; · iexact H0
      isplitl [H1]; · iexact H1
      isplitl [H2]; · iexists _; iexact H2
      isplitl [HA]; · iexact HA
      isplitl [HQ]; · iexact HQ
      iintro ⟨H0, H1, H2, HA, HQ⟩
      isplitl [Hoth HA HQ Hr]
      · isplitl [Hoth]; · iexact Hoth
        isplitl [HA]; · iexact HA
        isplitl [HQ]; · iexact HQ
        iexact Hr
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      iintro ⟨⟨Hoth, HA, HQ, Hr⟩, Ho, ⟨%d0, H0⟩, ⟨%d1, H1⟩, ⟨%d2, H2⟩⟩
      iapply (sound_kernel2_B c Set.univ (grid2.coords t) _ _ _ _ _ _ _ _ _ _ hc0 hc1 (iblk2 V c 0 t) (iblk2 V c 1 t) ((dat2 V c).before 2 t d2) _ _ _)
      isplitl [H0]; · iexact H0
      isplitl [H1]; · iexact H1
      isplitl [H2]; · iexact H2
      isplitl [HA]; · iexact HA
      isplitl [HQ]; · iexact HQ
      iintro ⟨H0, H1, H2, HA, HQ⟩
      isplitl [Hoth HA HQ Hr]
      · isplitl [Hoth]; · iexact Hoth
        isplitl [HA]; · iexact HA
        isplitl [HQ]; · iexact HQ
        iexact Hr
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch buffers' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega)]
  refine .trans ?_ (PhiA2_join c)
  iintro ⟨Ho, HA, HQ, Hr⟩
  isplitl [Ho]; · iexact Ho
  isplitl [HA]; · iexists _; iexact HA
  isplitl [HQ]; · iexists _; iexact HQ
  iexact Hr

end Cert.KernelIdeal.Hand

end
-- ==== Proof.KI.Fold.lean ====
/-
  The buffer contents of a core at each boundary of @main, as a fold from the launch memory `m`:
  after the first linear layer's launch its arrays hold what the pipeline's write-backs leave and every other buffer
  what it held; then the six host operations (the pair-mean of the input's rows); then the second linear layer's
  launch; then the similarity kernel's. Each region's proof data is taken at the contents it is entered from.
-/
import proofs.«132651_j60120952209550_1_alg».proof.Proof.KI.Lin0
import proofs.«132651_j60120952209550_1_alg».proof.Proof.KI.Lin1
import proofs.«132651_j60120952209550_1_alg».proof.Proof.KI.Sim2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch: what the first launch is entered from. -/
abbrev W0 : Dev nD → Valuation τ sig (Elt F) := fun c b => m (c, b)
abbrev V0 : (c : Dev nD) → (b : Ref sig .tc) → Buf (Elt F) ((c : Thread nD τ).loc b) := fun c b => W0 m c b

/-- After the first linear layer's launch. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b

/-- After the host operations: what the second linear layer's launch is entered from. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the second linear layer's launch: what the similarity kernel's launch is entered from. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b

/-- After the similarity kernel's launch: what @main returns with. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b

/-- At a region's exit each of its arrays holds what the pipeline leaves and every other buffer what it held at entry. -/
theorem hF0 (c : Dev nD) (w : Fin cfg0.W) : (dat0 (V0 m) c).arrAt w cfg0.N = V1 m c (Pipeline.arrRef spec0 w) := (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
theorem hF1 (c : Dev nD) (w : Fin cfg1.W) : (dat1 (V2 m) c).arrAt w cfg1.N = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
theorem hF2 (c : Dev nD) (w : Fin cfg2.W) : (dat2 (V3 m) c).arrAt w cfg2.N = V4 m c (Pipeline.arrRef spec2 w) := (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

end Cert.KernelIdeal.Hand

end
-- ==== Proof.KI.Run.lean ====
/-
  The run of @main: the first linear layer's kernel, the six host operations that average the input's rows in
  pairs, the second linear layer's kernel, the similarity kernel. Launched from any memory with every counter at
  zero, every weakly fair execution on the cores terminates, and at the end each unscoped buffer of a core holds
  what the fold of Fold.lean names for it (its value after the last kernel).

  Between two items a core holds every unscoped buffer whole at that boundary's contents, its generator register at
  some state, and owes nothing. A kernel region takes its windows' arrays out of those buffers at entry and puts
  them back, at what the pipeline's write-backs leave, at exit; the host stretch runs over the buffers as they are.
  The first two kernels keep the class invariant between grid points; the similarity kernel keeps its own (its two
  scratch buffers at named contents), which the class invariant enters at the first point and leaves after the last.

  Nothing here depends on the float instance.
-/
import proofs.«132651_j60120952209550_1_alg».proof.Proof.KI.Fold
import proofs.«132651_j60120952209550_1_alg».proof.Proof.Gen.KernelIdeal.Regions
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading the fold back

A buffer that an item does not write holds after it what it held before: a kernel changes only its output window's
array (an input window's array comes back as it was entered), the host stretch only the six buffers it defines. -/

/-- An unscoped buffer of the core is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The input is the first kernel's first input window: it leaves that kernel as launched. -/
theorem V1_main_arg0 (c : Dev nD) : V1 m c main_arg0 = m ((c : Thread nD τ).loc main_arg0) :=
  calc W1 m c (Proc.devRef .tc main_arg0)
    _ = (dat0 (V0 m) c).A 0 := (W1_arr m c 0).trans ((dat0 (V0 m) c).arrAt_in 0 rfl _)
    _ = m ((c : Thread nD τ).loc main_arg0) := A_eq0 (V0 m) c 0

/-- The weight is the first kernel's second input window and no host operation writes it: the second kernel finds it as launched. -/
theorem V2_main_arg1 (c : Dev nD) : V2 m c main_arg1 = m ((c : Thread nD τ).loc main_arg1) :=
  calc W2 m c (Proc.devRef .tc main_arg1)
    _ = W1 m c (Proc.devRef .tc main_arg1) := StableHlo.after_of_writes_sub hostOps1 _ hostOps1_writes (by decide)
    _ = (dat0 (V0 m) c).A 1 := (W1_arr m c 1).trans ((dat0 (V0 m) c).arrAt_in 1 rfl _)
    _ = m ((c : Thread nD τ).loc main_arg1) := A_eq0 (V0 m) c 1

/-- The bias likewise (the first kernel's third input window). -/
theorem V2_main_arg2 (c : Dev nD) : V2 m c main_arg2 = m ((c : Thread nD τ).loc main_arg2) :=
  calc W2 m c (Proc.devRef .tc main_arg2)
    _ = W1 m c (Proc.devRef .tc main_arg2) := StableHlo.after_of_writes_sub hostOps1 _ hostOps1_writes (by decide)
    _ = (dat0 (V0 m) c).A 2 := (W1_arr m c 2).trans ((dat0 (V0 m) c).arrAt_in 2 rfl _)
    _ = m ((c : Thread nD τ).loc main_arg2) := A_eq0 (V0 m) c 2

/-- The first layer's output reaches the similarity kernel as the first kernel left it: no host operation writes it and
    it is no window of the second kernel. -/
theorem V3_main_v0 (c : Dev nD) : V3 m c main_v0 = (dat0 (V0 m) c).arrAt 3 cfg0.N :=
  calc W3 m c (Proc.devRef .tc main_v0)
    _ = W2 m c (Proc.devRef .tc main_v0) := W3_of_ne m c main_v0 (by decide)
    _ = W1 m c (Proc.devRef .tc main_v0) := StableHlo.after_of_writes_sub hostOps1 _ hostOps1_writes (by decide)
    _ = (dat0 (V0 m) c).arrAt 3 cfg0.N := W1_arr m c 3

/-- The second layer's output as the second kernel leaves it. -/
theorem V3_main_v5 (c : Dev nD) : V3 m c main_v5 = (dat1 (V2 m) c).arrAt 3 cfg1.N := W3_arr m c 3

/-- At the end the input holds its launch contents: the last two kernels do not touch it, no host operation writes
    it, the first kernel only reads it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_writes_sub hostOps1 _ hostOps1_writes (by decide)
    _ = m ((c : Thread nD τ).loc main_arg0) := V1_main_arg0 m c

/-- The weight at the end: the similarity kernel does not touch it, the second kernel only reads it (its second input window). -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = (dat1 (V2 m) c).A 1 := (W3_arr m c 1).trans ((dat1 (V2 m) c).arrAt_in 1 rfl _)
    _ = V2 m c main_arg1 := A_eq1 (V2 m) c 1
    _ = m ((c : Thread nD τ).loc main_arg1) := V2_main_arg1 m c

/-- The bias at the end (the second kernel's third input window). -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = (dat1 (V2 m) c).A 2 := (W3_arr m c 2).trans ((dat1 (V2 m) c).arrAt_in 2 rfl _)
    _ = V2 m c main_arg2 := A_eq1 (V2 m) c 2
    _ = m ((c : Thread nD τ).loc main_arg2) := V2_main_arg2 m c

/-- The second layer's output at the end: the similarity kernel only reads it (its first input window). -/
theorem W4_main_v5 (c : Dev nD) : W4 m c (Proc.devRef .tc main_v5) = (dat1 (V2 m) c).arrAt 3 cfg1.N :=
  calc W4 m c (Proc.devRef .tc main_v5)
    _ = (dat2 (V3 m) c).A 0 := (W4_arr m c 0).trans ((dat2 (V3 m) c).arrAt_in 0 rfl _)
    _ = V3 m c main_v5 := A_eq2 (V3 m) c 0
    _ = (dat1 (V2 m) c).arrAt 3 cfg1.N := V3_main_v5 m c

/-- The result at the end: what the similarity kernel's write-backs leave in its output window's array. -/
theorem W4_main_v6 (c : Dev nD) : W4 m c (Proc.devRef .tc main_v6) = (dat2 (V3 m) c).arrAt 2 cfg2.N := W4_arr m c 2

/-! ## The proof data of the three pipelines and the thread state -/

/-- Each pipeline's proof data at the contents its kernel is entered from. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
abbrev 𝒱₀ : Variants := Variants.none
/-- No core waits on another: no level is assigned. -/
abbrev L : GSem nD τ sig → Finset Unit := fun _ => ∅
abbrev lv : GSem nD τ sig → Unit → ℕ := fun _ _ => 0
/-- What a core holds beside its buffers at every boundary: its generator register at some state, and owing nothing. -/
abbrev R (c : Dev nD) : sProp 𝕄 := iprop((∃ r, prngReg c r) ∗ ∃ W, owes (c : Thread nD τ) (0 : CellTallies nD τ sig Unit) W)
/-- A stretch of host operations run over the unscoped buffers from the contents W; it leaves them at the contents
    the operations make of W, the rest of the state untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The state after the last kernel, what is owed apart: every unscoped buffer at W4, the generator register at some state. -/
abbrev Tₙ (c : Dev nD) : sProp 𝕄 := iprop(StableHlo.held (c : Thread nD τ) (Pipeline.ucRefs τ sig) (W4 m c) ∗ ∃ r, prngReg c r)

/-! ## The three kernels as segments -/

-- a library lemma stated over the pinned configuration meets the printed one only if unification may unfold plain
-- definitions inside a metavariable's type
set_option backward.isDefEq.respectTransparency.types false in
/-- The first linear layer's kernel: entered from the launch contents W0, left at W1. The class invariant takes the
    generator register in and hands it back; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second linear layer's kernel: entered from W2 (what the host operations leave), left at W3. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The similarity kernel: entered from W3, left at W4, which is what @main returns with. Its invariant between grid
    points is its own (the two scratch buffers at named contents): the class invariant, made at entry, is that
    invariant before the first point, and the invariant after the last point gives the class's back. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V3 m) c).Φ 0 from rfl]
    refine .trans ?_ (hin2 (V3 m) c)
    unfold Pipeline.ΦA
    iintro ⟨Hp, -, Hr⟩
    isplitl [Hr]; · iexact Hr
    iexact Hp
  hout c := by
    rw [Pipeline.ownSems0_none, show (pdats m 2 c).Φ (Fin.last _) = (dat2 (V3 m) c).Φ (Fin.last cfg2.N) from rfl]
    refine (hout2 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four items, and the launch -/

/-- The first kernel, the host stretch from what it leaves, the second kernel, the similarity kernel. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .region (reg2 m) ]
/-- @main is the run of these items: it is the chain of their programs, and the items' run unfolds to the same chain. -/
theorem main_run (c : Dev nD) : main (F := F) c = Pipeline.Seg.run (segs m) := (main_chain c).trans (by chain_rfl)

-- the launch theorem's implicit arguments come from unifying its conclusion with the statement, which takes unfolding
-- plain definitions inside a metavariable's type
set_option backward.isDefEq.respectTransparency.types false in
/-- THE RUN. From any memory with every counter at zero and any generator registers, every weakly fair execution of
    @main on the cores terminates without fault, and in every final memory each unscoped buffer of a core holds what
    W4 names for it. Each item is entered from exactly what the one before it left, so the states chain by
    reflexivity; the launch deals the first state (the buffers at the launch memory, the register, nothing owed), and
    the last state is read against the final memory buffer by buffer. -/
theorem run : θ_run defs (onTc (τ := τ) (main (F := F))) ⟨m, fun _ => 0, ρ⟩
    (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Hand

end
-- ==== Proof.Spec.lean ====
/-
  What the program computes, as functions of the argument arrays on the extended reals, index by index.
  `lin`: a linear layer with the weight matrix transposed, X·Wᵀ + b, over rows of length 128.
  `pool`: the mean of each pair of consecutive rows (sum of the two, divided by the word 2.0).
  `sim`: exp(−√max(‖q‖² + ‖p‖² − 2·⟨q,p⟩, 0) · 1) for a query row q and a key row p.
  `wsum`: the keys' rows summed with those weights, over all 4096 keys.
  The words 2.0 and 1.0 stay as their bit patterns: both programs spell the same words, so they are never evaluated.
-/
import Idealize.ShloMosaic.PureOps.Ideal
import Idealize.ShloMosaic.Lib.ValueIdx

noncomputable section

namespace Cert.Spec

open Idealize.ShloMosaic Idealize.ShloMosaic.ValueIdx

abbrev Sh1 (a : ℕ) : Shape := ⟨1, ![a]⟩
abbrev Sh2 (a b : ℕ) : Shape := ⟨2, ![a, b]⟩
abbrev Sh3 (a b c : ℕ) : Shape := ⟨3, ![a, b, c]⟩

/-- The words the programs spell: 2.0 and 1.0. -/
abbrev two : EReal := Ideal.ofBits .f32 0x40000000#32
abbrev one : EReal := Ideal.ofBits .f32 0x3F800000#32

/-- A linear layer over rows of length 128, the weights transposed: entry (b, l, e) is Σ_d X(b,l,d)·W(e,d) + bias(e). -/
def lin (L : ℕ) (X : (Sh3 8 L 128).Idx → EReal) (W : (Sh2 128 128).Idx → EReal) (b : (Sh1 128).Idx → EReal) :
    (Sh3 8 L 128).Idx → EReal :=
  fun i => (∑ d : Fin 128, X (ix3 (i 0) (i 1) d) * W (ix2 (i 2) d)) + b (ix1 (i 2))

/-- Row 2l + j of the 4096 rows, for j < 2 and l < 2048. -/
abbrev pairRow (l : Fin 2048) (j : Fin 2) : Fin 4096 := ⟨2 * l.val + j.val, by omega⟩

/-- The mean of consecutive row pairs: entry (b, l, d) is (x(b,2l,d) + x(b,2l+1,d)) / 2.0. -/
def pool (x : (Sh3 8 4096 128).Idx → EReal) : (Sh3 8 2048 128).Idx → EReal :=
  fun i => Ideal.div (∑ j : Fin 2, x (ix3 (i 0) (pairRow (i 1) j) (i 2))) two

/-- The squared length of row (b, l). -/
def sq (L : ℕ) (X : (Sh3 8 L 128).Idx → EReal) (b : Fin 8) (l : Fin L) : EReal :=
  ∑ d : Fin 128, X (ix3 b l d) * X (ix3 b l d)

/-- The similarity of query row (b, l) and key row (b, k). -/
def sim (Q : (Sh3 8 2048 128).Idx → EReal) (P : (Sh3 8 4096 128).Idx → EReal) (b : Fin 8) (l : Fin 2048) (k : Fin 4096) : EReal :=
  Ideal.exp (-(Ideal.sqrt (max ((sq 2048 Q b l + sq 4096 P b k) - two * ∑ d : Fin 128, Q (ix3 b l d) * P (ix3 b k d)) 0)) * one)

/-- The weighted sum of the key rows: entry (b, l, d) is Σ_k sim(b,l,k)·P(b,k,d). -/
def wsum (Q : (Sh3 8 2048 128).Idx → EReal) (P : (Sh3 8 4096 128).Idx → EReal) : (Sh3 8 2048 128).Idx → EReal :=
  fun i => ∑ k : Fin 4096, sim Q P (i 0) (i 1) k * P (ix3 (i 0) k (i 2))

/-- The program's first result, from the arguments. -/
def resQ (x : (Sh3 8 4096 128).Idx → EReal) (W : (Sh2 128 128).Idx → EReal) (b : (Sh1 128).Idx → EReal) : (Sh3 8 2048 128).Idx → EReal :=
  lin 2048 (pool x) W b

/-- The program's second (and third) result. -/
def resK (x : (Sh3 8 4096 128).Idx → EReal) (W : (Sh2 128 128).Idx → EReal) (b : (Sh1 128).Idx → EReal) : (Sh3 8 2048 128).Idx → EReal :=
  wsum (resQ x W b) (lin 4096 x W b)

end Cert.Spec

end
-- ==== Proof.Ref.lean ====
/-
  The reference program's stages are the specification's functions, on the extended reals.
  Each stage is read at an index through the generated read-at-an-index lemmas; the composed index
  functions are identified with the coordinate constructors; what is left is the specification's term.
  The sums of the reference start from the word 0.0, which is the number 0; the words 2.0 and 1.0 are
  the same words on both sides and are never evaluated.
-/
import proofs.«132651_j60120952209550_1_alg».proof.Proof.Gen.ReferenceIdeal.Read
import proofs.«132651_j60120952209550_1_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx

/-! ## The linear layer on the 4096 rows -/

/-- The projected rows: X·Wᵀ + b. -/
theorem proj_eq (x0 : (⟨S8x4096x128, .f32⟩ : BufTy).Contents (Elt Ideal)) (x1 : (⟨S128x128, .f32⟩ : BufTy).Contents (Elt Ideal))
    (x2 : (⟨S128, .f32⟩ : BufTy).Contents (Elt Ideal)) :
    val_main_v3 (F := Ideal) x0 x1 x2 = Cert.Spec.lin 4096 x0 x1 x2 := by
  funext i
  obtain ⟨a, b, c, rfl⟩ : ∃ a b c, i = ix3 a b c := ⟨i 0, i 1, i 2, eq_ix3 i⟩
  rw [val_main_v3_apply, val_main_v0_apply, val_main_v2_apply, val_main_v1_apply]
  have el : ∀ k : Fin 128, lidx_main_v0 (ix3 a b c) k = ix3 a b k := fun k =>
    funext fun d => Fin.ext (by match d with | ⟨0, _⟩ => rfl | ⟨1, _⟩ => rfl | ⟨2, _⟩ => rfl)
  have er : ∀ k : Fin 128, ridx_main_v0 (ix3 a b c) k = ix2 c k := fun k =>
    funext fun d => Fin.ext (by match d with | ⟨0, _⟩ => rfl | ⟨1, _⟩ => rfl)
  have eb : idx_main_v1 (idx_main_v2 (ix3 a b c)) = ix1 c :=
    funext fun d => Fin.ext (by match d with | ⟨0, _⟩ => rfl)
  simp only [el, er, eb, Ideal.addf_def]
  rfl

/-! ## The mean of consecutive row pairs -/

/-- The reshape to [8,2048,2,128] followed by the read of pair member `k` is row `2l + k` of the 4096. -/
theorem idx_pair (a : Fin 8) (l : Fin 2048) (c : Fin 128) (k : Fin 2) :
    idx_main_v4 (idx_main_v5 (ix3 a l c) k) = ix3 a (Cert.Spec.pairRow l k) c := by
  have ha := a.isLt
  have hl := l.isLt
  have hc := c.isLt
  have hk := k.isLt
  funext d
  apply Fin.ext
  match d with
  | ⟨0, _⟩ =>
    show (((a.val * 2048 + l.val) * 2 + k.val) * 128 + c.val) / 524288 = a.val
    omega
  | ⟨1, _⟩ =>
    show (((a.val * 2048 + l.val) * 2 + k.val) * 128 + c.val) / 128 % 4096 = 2 * l.val + k.val
    omega
  | ⟨2, _⟩ =>
    show (((a.val * 2048 + l.val) * 2 + k.val) * 128 + c.val) % 128 = c.val
    omega

/-- The pooled rows: the sum of each pair of rows, from the number 0, divided by the word 2.0. -/
theorem pool_eq (x0 : (⟨S8x4096x128, .f32⟩ : BufTy).Contents (Elt Ideal)) :
    val_main_v7 (F := Ideal) x0 = Cert.Spec.pool x0 := by
  funext i
  obtain ⟨a, l, c, rfl⟩ : ∃ a l c, i = ix3 a l c := ⟨i 0, i 1, i 2, eq_ix3 i⟩
  rw [val_main_v7_apply, val_main_v5_apply, val_main_cst_apply, val_main_v6_apply, val_main_cst_0_apply]
  simp only [val_main_v4_apply, idx_pair, Ideal.hostDivf_def, Ideal.ofBits_def, Ideal.ofBits_zero_f32, zero_add]
  rfl

/-! ## The query rows: the same linear layer on the pooled rows -/

/-- The first result: the linear layer applied to the pooled rows. -/
theorem q_eq (x0 : (⟨S8x4096x128, .f32⟩ : BufTy).Contents (Elt Ideal)) (x1 : (⟨S128x128, .f32⟩ : BufTy).Contents (Elt Ideal))
    (x2 : (⟨S128, .f32⟩ : BufTy).Contents (Elt Ideal)) :
    val_main_v11 (F := Ideal) x0 x1 x2 = Cert.Spec.resQ x0 x1 x2 := by
  funext i
  obtain ⟨a, l, c, rfl⟩ : ∃ a l c, i = ix3 a l c := ⟨i 0, i 1, i 2, eq_ix3 i⟩
  rw [val_main_v11_apply, val_main_v8_apply, val_main_v10_apply, val_main_v9_apply, pool_eq]
  have el : ∀ k : Fin 128, lidx_main_v8 (ix3 a l c) k = ix3 a l k := fun k =>
    funext fun d => Fin.ext (by match d with | ⟨0, _⟩ => rfl | ⟨1, _⟩ => rfl | ⟨2, _⟩ => rfl)
  have er : ∀ k : Fin 128, ridx_main_v8 (ix3 a l c) k = ix2 c k := fun k =>
    funext fun d => Fin.ext (by match d with | ⟨0, _⟩ => rfl | ⟨1, _⟩ => rfl)
  have eb : idx_main_v9 (idx_main_v10 (ix3 a l c)) = ix1 c :=
    funext fun d => Fin.ext (by match d with | ⟨0, _⟩ => rfl)
  simp only [el, er, eb, Ideal.addf_def]
  rfl

/-! ## The similarities and the weighted sum of the key rows -/

/-- The squared lengths of the query rows, spread along the keys. -/
theorem sqQ_eq (x0 : (⟨S8x4096x128, .f32⟩ : BufTy).Contents (Elt Ideal)) (x1 : (⟨S128x128, .f32⟩ : BufTy).Contents (Elt Ideal))
    (x2 : (⟨S128, .f32⟩ : BufTy).Contents (Elt Ideal)) (a : Fin 8) (l : Fin 2048) (k : Fin 4096) :
    val_main_v19 (F := Ideal) x0 x1 x2 (ix3 a l k) = Cert.Spec.sq 2048 (Cert.Spec.resQ x0 x1 x2) a l := by
  rw [val_main_v19_apply, val_main_v14_apply, val_main_v13_apply, val_main_cst_1_apply]
  have e : ∀ d : Fin 128, idx_main_v13 (idx_main_v14 (idx_main_v19 (ix3 a l k))) d = ix3 a l d := fun d =>
    funext fun t => Fin.ext (by match t with | ⟨0, _⟩ => rfl | ⟨1, _⟩ => rfl | ⟨2, _⟩ => rfl)
  simp only [val_main_v12_apply, q_eq, e, Ideal.mulf_def, Ideal.ofBits_def, Ideal.ofBits_zero_f32, zero_add]
  rfl

/-- The squared lengths of the key rows, spread along the queries. -/
theorem sqP_eq (x0 : (⟨S8x4096x128, .f32⟩ : BufTy).Contents (Elt Ideal)) (x1 : (⟨S128x128, .f32⟩ : BufTy).Contents (Elt Ideal))
    (x2 : (⟨S128, .f32⟩ : BufTy).Contents (Elt Ideal)) (a : Fin 8) (l : Fin 2048) (k : Fin 4096) :
    val_main_v20 (F := Ideal) x0 x1 x2 (ix3 a l k) = Cert.Spec.sq 4096 (Cert.Spec.lin 4096 x0 x1 x2) a k := by
  rw [val_main_v20_apply, val_main_v17_apply, val_main_v16_apply, val_main_cst_2_apply]
  have e : ∀ d : Fin 128, idx_main_v16 (idx_main_v17 (idx_main_v20 (ix3 a l k))) d = ix3 a k d := fun d =>
    funext fun t => Fin.ext (by match t with | ⟨0, _⟩ => rfl | ⟨1, _⟩ => rfl | ⟨2, _⟩ => rfl)
  simp only [val_main_v15_apply, proj_eq, e, Ideal.mulf_def, Ideal.ofBits_def, Ideal.ofBits_zero_f32, zero_add]
  rfl

/-- The inner products of query rows with key rows. -/
theorem dot_eq (x0 : (⟨S8x4096x128, .f32⟩ : BufTy).Contents (Elt Ideal)) (x1 : (⟨S128x128, .f32⟩ : BufTy).Contents (Elt Ideal))
    (x2 : (⟨S128, .f32⟩ : BufTy).Contents (Elt Ideal)) (a : Fin 8) (l : Fin 2048) (k : Fin 4096) :
    val_main_v18 (F := Ideal) x0 x1 x2 (ix3 a l k)
      = ∑ d : Fin 128, Cert.Spec.resQ x0 x1 x2 (ix3 a l d) * Cert.Spec.lin 4096 x0 x1 x2 (ix3 a k d) := by
  rw [val_main_v18_apply, q_eq, proj_eq]
  have el : ∀ d : Fin 128, lidx_main_v18 (ix3 a l k) d = ix3 a l d := fun d =>
    funext fun t => Fin.ext (by match t with | ⟨0, _⟩ => rfl | ⟨1, _⟩ => rfl | ⟨2, _⟩ => rfl)
  have er : ∀ d : Fin 128, ridx_main_v18 (ix3 a l k) d = ix3 a k d := fun d =>
    funext fun t => Fin.ext (by match t with | ⟨0, _⟩ => rfl | ⟨1, _⟩ => rfl | ⟨2, _⟩ => rfl)
  simp only [el, er]

/-- The weight of key row `k` for query row `l`: exp(−√max(‖q‖² + ‖p‖² − 2.0·⟨q,p⟩, 0)·1.0). -/
theorem sim_eq (x0 : (⟨S8x4096x128, .f32⟩ : BufTy).Contents (Elt Ideal)) (x1 : (⟨S128x128, .f32⟩ : BufTy).Contents (Elt Ideal))
    (x2 : (⟨S128, .f32⟩ : BufTy).Contents (Elt Ideal)) (a : Fin 8) (l : Fin 2048) (k : Fin 4096) :
    val_main_v31 (F := Ideal) x0 x1 x2 (ix3 a l k)
      = Cert.Spec.sim (Cert.Spec.resQ x0 x1 x2) (Cert.Spec.lin 4096 x0 x1 x2) a l k := by
  rw [val_main_v31_apply, val_main_v30_apply, val_main_v28_apply, val_main_v27_apply, val_main_v26_apply,
    val_main_v24_apply, val_main_v21_apply, val_main_v23_apply, val_main_v22_apply, val_main_cst_3_apply,
    val_main_v25_apply, val_main_cst_4_apply, val_main_v29_apply, val_main_cst_5_apply,
    sqQ_eq, sqP_eq, dot_eq]
  simp only [Ideal.hostUnary_exp_def, Ideal.hostUnary_sqrt_def, Ideal.hostNegf_def, Ideal.negf_def, Ideal.maximumf_def,
    Ideal.subf_def, Ideal.mulf_def, Ideal.addf_def, Ideal.ofBits_def, Ideal.ofBits_zero_f32]
  rfl

/-- The second result: the key rows summed with the similarities as weights. -/
theorem k_eq (x0 : (⟨S8x4096x128, .f32⟩ : BufTy).Contents (Elt Ideal)) (x1 : (⟨S128x128, .f32⟩ : BufTy).Contents (Elt Ideal))
    (x2 : (⟨S128, .f32⟩ : BufTy).Contents (Elt Ideal)) :
    val_main_v32 (F := Ideal) x0 x1 x2 = Cert.Spec.resK x0 x1 x2 := by
  funext i
  obtain ⟨a, l, c, rfl⟩ : ∃ a l c, i = ix3 a l c := ⟨i 0, i 1, i 2, eq_ix3 i⟩
  rw [val_main_v32_apply, proj_eq]
  have el : ∀ k : Fin 4096, lidx_main_v32 (ix3 a l c) k = ix3 a l k := fun k =>
    funext fun t => Fin.ext (by match t with | ⟨0, _⟩ => rfl | ⟨1, _⟩ => rfl | ⟨2, _⟩ => rfl)
  have er : ∀ k : Fin 4096, ridx_main_v32 (ix3 a l c) k = ix3 a k c := fun k =>
    funext fun t => Fin.ext (by match t with | ⟨0, _⟩ => rfl | ⟨1, _⟩ => rfl | ⟨2, _⟩ => rfl)
  simp only [el, er, sim_eq]
  rfl

end Cert.RefSide

end
-- ==== Proof.KI.HostPool.lean ====
/-
  Between the first and the second launch @main takes the mean of each pair of consecutive rows of the input on the
  host: a reshape [8,4096,128] → [8,2048,2,128], a sum over the axis of size two from the word 0.0, a divide by the
  word 2.0. The reference does the same six operations on the same array, so the buffer the second launch reads
  holds the reference's stage, which is the specification's `pool`.
-/
import proofs.«132651_j60120952209550_1_alg».proof.Proof.KI.Run
import proofs.«132651_j60120952209550_1_alg».proof.Proof.Ref
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The pooled rows as the host operations compute them from the input array the first launch left untouched. -/
theorem V2_main_v4_term (c : Dev nD) :
    V2 m c main_v4 = Host.divf (Host.reduceAdd (shapeCast _ (V1 m c main_arg0) shapeCasts_S8x4096x128_S8x2048x2x128)
        (constant (F := Ideal) S_ .f32 0x00000000#32) reducesTo_S8x2048x2x128_S8x2048x128_d2 h_S_)
      (broadcastInDim S8x2048x128 ![] bcast_S_S8x2048x128 (constant (F := Ideal) S_ .f32 0x40000000#32)) := by
  show StableHlo.after hostOps1 (W1 m c) (Proc.devRef .tc main_v4) = _
  after_results; rfl

/-- They are the specification's pair-means of the launch input. -/
theorem V2_main_v4 (c : Dev nD) : V2 m c main_v4 = Cert.Spec.pool (m ((c : Thread nD τ).loc main_arg0)) := by
  rw [V2_main_v4_term, V1_main_arg0]
  exact (show _ = Cert.ReferenceIdeal.Read.val_main_v7 (F := Ideal) (m ((c : Thread nD τ).loc main_arg0)) from rfl).trans
    (Cert.RefSide.pool_eq _)

end Cert.KernelIdeal.Hand

end
-- ==== Proof.KI.ValLin0.lean ====
/-
  What the first linear layer's launch (custom_call 0) leaves in its output array, as one function of the three
  argument arrays, on the extended reals.
  The body's payload at (0, r, e) is Σ_d x(0, r, d) · W(e, d) + bias(e): the slab's row r against row e of the weights
  (both operands contract their axis 1), plus the bias broadcast along the rows. At grid point t the input slab is the
  block of the input array with the output slab's block index, and the weights and the bias are whole, so what the
  point writes back is its block of the layer of the arrays; the output's blocks tile its array, (batch, slab of 1024
  rows) by (batch, slab), so the array ends holding the layer everywhere.
-/
import proofs.«132651_j60120952209550_1_alg».proof.Proof.KI.Lin0
import proofs.«132651_j60120952209550_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

/-! ## The payload at an index -/

/-- The product's operand indices at output index `i` and contraction index `q`, axis by axis: the left operand's row
    is the output's row, the right operand's row is the output's column, and both contract their axis 1. -/
theorem lhs0_0 (i : S1024x128.Idx) (q : dot_S1024x128_S128x128_S1024x128_1_1_0_0_n_n.contr.Idx) :
    (dot_S1024x128_S128x128_S1024x128_1_1_0_0_n_n.lhsIdx i q 0).val = (i 0).val := by
  unfold DotDims.lhsIdx
  rw [dif_neg (show ¬(0 : Fin S1024x128.rank) ∈ dot_S1024x128_S128x128_S1024x128_1_1_0_0_n_n.lhsBatch by decide), dif_pos (show (0 : Fin S1024x128.rank) ∈ dot_S1024x128_S128x128_S1024x128_1_1_0_0_n_n.lhsNonContracting by decide)]
  rfl
theorem lhs0_1 (i : S1024x128.Idx) (q : dot_S1024x128_S128x128_S1024x128_1_1_0_0_n_n.contr.Idx) :
    (dot_S1024x128_S128x128_S1024x128_1_1_0_0_n_n.lhsIdx i q 1).val = (q ⟨0, by decide⟩).val :=
  dot_S1024x128_S128x128_S1024x128_1_1_0_0_n_n.lhsIdx_val_of_single rfl i q
theorem rhs0_0 (i : S1024x128.Idx) (q : dot_S1024x128_S128x128_S1024x128_1_1_0_0_n_n.contr.Idx) :
    (dot_S1024x128_S128x128_S1024x128_1_1_0_0_n_n.rhsIdx i q 0).val = (i 1).val := by
  unfold DotDims.rhsIdx
  rw [dif_neg (show ¬(0 : Fin S128x128.rank) ∈ dot_S1024x128_S128x128_S1024x128_1_1_0_0_n_n.rhsBatch by decide), dif_pos (show (0 : Fin S128x128.rank) ∈ dot_S1024x128_S128x128_S1024x128_1_1_0_0_n_n.rhsNonContracting by decide)]
  rfl
theorem rhs0_1 (i : S1024x128.Idx) (q : dot_S1024x128_S128x128_S1024x128_1_1_0_0_n_n.contr.Idx) :
    (dot_S1024x128_S128x128_S1024x128_1_1_0_0_n_n.rhsIdx i q 1).val = (q ⟨0, by decide⟩).val :=
  dot_S1024x128_S128x128_S1024x128_1_1_0_0_n_n.rhsIdx_val_of_single rfl i q

/-- The product into the zero splat, at (r, e): Σ_d A(r, d) · W(e, d). -/
theorem mm0 (a : FVec Ideal S1024x128 .f32) (w : FVec Ideal S128x128 .f32) (r : Fin 1024) (e : Fin 128) :
    matmul (F := Ideal) dot_S1024x128_S128x128_S1024x128_1_1_0_0_n_n none a w (constant S1024x128 .f32 0x00000000#32) (ix2 r e)
      = ∑ d : Fin 128, a (ix2 r d) * w (ix2 e d) := by
  show FloatOps.matmul dot_S1024x128_S128x128_S1024x128_1_1_0_0_n_n none a w (constant S1024x128 .f32 0x00000000#32) (ix2 r e) = _
  rw [Ideal.matmul_constant_zero_apply, ← Equiv.sum_comp (ValueIdx.contrEquiv1 dot_S1024x128_S128x128_S1024x128_1_1_0_0_n_n 128 rfl rfl).symm]
  refine Finset.sum_congr rfl fun k _ => ?_
  have hk := ValueIdx.contrEquiv1_symm_val dot_S1024x128_S128x128_S1024x128_1_1_0_0_n_n 128 rfl rfl k
  have el : dot_S1024x128_S128x128_S1024x128_1_1_0_0_n_n.lhsIdx (ix2 r e) ((ValueIdx.contrEquiv1 dot_S1024x128_S128x128_S1024x128_1_1_0_0_n_n 128 rfl rfl).symm k) = ix2 r k := funext fun ax => Fin.ext (by
    match ax with
    | ⟨0, _⟩ => exact lhs0_0 _ _
    | ⟨1, _⟩ => exact (lhs0_1 _ _).trans hk)
  have er : dot_S1024x128_S128x128_S1024x128_1_1_0_0_n_n.rhsIdx (ix2 r e) ((ValueIdx.contrEquiv1 dot_S1024x128_S128x128_S1024x128_1_1_0_0_n_n 128 rfl rfl).symm k) = ix2 e k := funext fun ax => Fin.ext (by
    match ax with
    | ⟨0, _⟩ => exact rhs0_0 _ _
    | ⟨1, _⟩ => exact (rhs0_1 _ _).trans hk)
  rw [el, er]

/-- The body's payload at (0, r, e): row r of the slab against row e of the weights, plus the bias at e. -/
theorem payX0 (x0 : Vec Ideal S1x1024x128 .f32) (x1 : Vec Ideal S128x128 .f32) (x2 : Vec Ideal S128 .f32) (r : Fin 1024) (e : Fin 128) :
    k0_pay1 (F := Ideal) x0 x1 x2 (ix3 (0 : Fin 1) r e) = (∑ d : Fin 128, x0 (ix3 (0 : Fin 1) r d) * x1 (ix2 e d)) + x2 (ix1 e) := by
  unfold k0_pay1
  rw [shapeCast_ab_1ab_apply, addf_apply, mm0, broadcastTo_1b_ab_apply, shapeCast_a_1a_apply]
  simp only [shapeCast_1ab_ab_apply]

/-! ## From the blocks to the array -/

variable (V : (c : Dev nD) → (b : Ref sig .tc) → Buf (Elt Ideal) ((c : Thread nD τ).loc b))

/-- Zero offsets, however many axes. -/
theorem hz0_3 : (![0, 0, 0] : Fin 3 → ℕ) = fun _ => 0 := funext fun a => by fin_cases a <;> rfl
theorem hz0_2 : (![0, 0] : Fin 2 → ℕ) = fun _ => 0 := funext fun a => by fin_cases a <;> rfl
theorem hz0_1 : (![0] : Fin 1 → ℕ) = fun _ => 0 := funext fun a => by fin_cases a <;> rfl

/-- The index maps over the grid: the input slab moves with the output slab, the weights and the bias stay at their
    one block, and the slabs are whole along the last axis. -/
theorem idx_facts0 : ∀ t : Fin cfg0.N, win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0
    ∧ win0_1.index t (1 : Fin 2) = 0
    ∧ win0_2.index t (0 : Fin 1) = 0
    ∧ win0_3.index t (2 : Fin 3) = 0 :=
  (by decide +kernel : ∀ t : Fin grid0.N, _)

theorem flushed_eq0 (c : Dev nD) (t : Fin cfg0.N) :
    (dat0 (F := Ideal) V c).flushed 3 t
      = ((cfg0.win 3).blk t).view.read (Elt Ideal) (Cert.Spec.lin 4096 (V c main_arg0) (V c main_arg1) (V c main_arg2)) := by
  show (cfg0.win 3).cut (grid0.coords t) ((dat0 V c).after 3 t) = _
  rw [after0_3]
  unfold out0_3
  rw [View.canon_unit_zero hz0_3]
  simp only [View.ld_unit_zero (S := S1x1024x128) hz0_3, View.ld_unit_zero (S := S128x128) hz0_2, View.ld_unit_zero (S := S128) hz0_1]
  obtain ⟨e0, e1, e2, e3, e4, e5, e6⟩ := idx_facts0 t
  funext j
  obtain ⟨u, r, e, rfl⟩ : ∃ (u : Fin 1) (r : Fin 1024) (e : Fin 128), j = ix3 u r e := ⟨j 0, j 1, j 2, eq_ix3 j⟩
  obtain rfl : u = 0 := Subsingleton.elim _ _
  show k0_pay1 (iblk0 V c 0 t) (iblk0 V c 1 t) (iblk0 V c 2 t) (ix3 (0 : Fin 1) r e) = Cert.Spec.lin 4096 (V c main_arg0) (V c main_arg1) (V c main_arg2) (((cfg0.win 3).blk t).view.emb (ix3 (0 : Fin 1) r e))
  rw [payX0]
  unfold Cert.Spec.lin
  have h0 : ∀ d : Fin 128, iblk0 V c 0 t (ix3 (0 : Fin 1) r d)
      = V c main_arg0 (ix3 (((cfg0.win 3).blk t).view.emb (ix3 (0 : Fin 1) r e) 0) (((cfg0.win 3).blk t).view.emb (ix3 (0 : Fin 1) r e) 1) d) := fun d => by
    show V c main_arg0 (((cfg0.win 0).blk t).view.emb (ix3 (0 : Fin 1) r d)) = V c main_arg0 _
    refine congrArg (V c main_arg0) (funext fun a => Fin.ext ?_)
    match a with
    | ⟨0, _⟩ => show win0_0.index t (0 : Fin 3) * 1 + 1 * 0 = win0_3.index t (0 : Fin 3) * 1 + 1 * 0; omega
    | ⟨1, _⟩ => show win0_0.index t (1 : Fin 3) * 1024 + 1 * r.val = win0_3.index t (1 : Fin 3) * 1024 + 1 * r.val; omega
    | ⟨2, _⟩ => show win0_0.index t (2 : Fin 3) * 128 + 1 * d.val = d.val; omega
  have h1 : ∀ d : Fin 128, iblk0 V c 1 t (ix2 e d) = V c main_arg1 (ix2 (((cfg0.win 3).blk t).view.emb (ix3 (0 : Fin 1) r e) 2) d) := fun d => by
    show V c main_arg1 (((cfg0.win 1).blk t).view.emb (ix2 e d)) = V c main_arg1 _
    refine congrArg (V c main_arg1) (funext fun a => Fin.ext ?_)
    match a with
    | ⟨0, _⟩ => show win0_1.index t (0 : Fin 2) * 128 + 1 * e.val = win0_3.index t (2 : Fin 3) * 128 + 1 * e.val; omega
    | ⟨1, _⟩ => show win0_1.index t (1 : Fin 2) * 128 + 1 * d.val = d.val; omega
  have h2 : iblk0 V c 2 t (ix1 e) = V c main_arg2 (ix1 (((cfg0.win 3).blk t).view.emb (ix3 (0 : Fin 1) r e) 2)) := by
    show V c main_arg2 (((cfg0.win 2).blk t).view.emb (ix1 e)) = V c main_arg2 _
    refine congrArg (V c main_arg2) (funext fun a => Fin.ext ?_)
    match a with
    | ⟨0, _⟩ => show win0_2.index t (0 : Fin 1) * 128 + 1 * e.val = win0_3.index t (2 : Fin 3) * 128 + 1 * e.val; omega
  rw [h2]
  exact congrArg (· + _) (Finset.sum_congr rfl fun d _ => by rw [h0 d, h1 d])

/-- An index of the array is in point `t`'s block iff each coordinate is in the block's range on its axis. -/
theorem mem_blk0 (t : Fin cfg0.N) (i : S8x4096x128.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v0).slice (win0_3.rect t)).set ↔ _
  rw [View.set_slice_whole, Rect.mem_set_unit]
  exact Iff.rfl

/-- The grid is the array's batches by its slabs of 1024 rows. -/
theorem tiles0 : grid0.bound 0 = S8x4096x128.size 0 ∧ grid0.bound 1 * 1024 = S8x4096x128.size 1 := by decide

/-- Every (batch, slab) pair is some point's output block index. -/
theorem idx_onto0 : ∀ (q0 : Fin (grid0.bound 0)) (q1 : Fin (grid0.bound 1)), ∃ t : Fin cfg0.N,
    win0_3.index t (0 : Fin 3) = q0.val ∧ win0_3.index t (1 : Fin 3) = q1.val :=
  (by decide +kernel : ∀ (q0 : Fin (grid0.bound 0)) (q1 : Fin (grid0.bound 1)), ∃ t : Fin grid0.N,
    win0_3.index t (0 : Fin 3) = q0.val ∧ win0_3.index t (1 : Fin 3) = q1.val)

/-- The output's blocks cover its array: row l of batch b is in the block of the point with block index (b, l / 1024, 0). -/
theorem cover_arr0 (i : S8x4096x128.Idx) :
    ∃ t : Fin cfg0.N, (cfg0.win 3).flush t = true ∧ i ∈ ((cfg0.win 3).blk t).view.set := by
  obtain ⟨g0, g1⟩ := tiles0
  have hi0 : (i 0).val < S8x4096x128.size 0 := (i 0).isLt
  have hi1 : (i 1).val < S8x4096x128.size 1 := (i 1).isLt
  have hi2 : (i 2).val < 128 := (i 2).isLt
  obtain ⟨t, q0, q1⟩ := idx_onto0 ⟨(i 0).val, by omega⟩ ⟨(i 1).val / 1024, by omega⟩
  have q2 := (idx_facts0 t).2.2.2.2.2.2
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; simp only [] at q0; omega
  | ⟨1, _⟩ => show win0_3.index t (1 : Fin 3) * 1024 ≤ (i 1).val ∧ (i 1).val < win0_3.index t (1 : Fin 3) * 1024 + 1024; simp only [] at q1; omega
  | ⟨2, _⟩ => show win0_3.index t (2 : Fin 3) * 128 ≤ (i 2).val ∧ (i 2).val < win0_3.index t (2 : Fin 3) * 128 + 128; omega

/-- The first linear layer's output array after its launch: the layer of the three argument arrays as the region finds them. -/
theorem final0 (c : Dev nD) :
    (dat0 (F := Ideal) V c).arrAt 3 cfg0.N = Cert.Spec.lin 4096 (V c main_arg0) (V c main_arg1) (V c main_arg2) :=
  (dat0 (F := Ideal) V c).arrAt_eq_of_cover 3 (Cert.Spec.lin 4096 (V c main_arg0) (V c main_arg1) (V c main_arg2))
    (fun t _ => flushed_eq0 V c t) cover_arr0

end Cert.KernelIdeal.Hand

end
-- ==== Proof.KI.ValLin1.lean ====
/-
  What the first linear layer's launch (custom_call 1) leaves in its output array, as one function of the three
  argument arrays, on the extended reals.
  The body's payload at (0, r, e) is Σ_d x(0, r, d) · W(e, d) + bias(e): the slab's row r against row e of the weights
  (both operands contract their axis 1), plus the bias broadcast along the rows. At grid point t the input slab is the
  block of the input array with the output slab's block index, and the weights and the bias are whole, so what the
  point writes back is its block of the layer of the arrays; the output's blocks tile its array, (batch, slab of 1024
  rows) by (batch, slab), so the array ends holding the layer everywhere.
-/
import proofs.«132651_j60120952209550_1_alg».proof.Proof.KI.Lin1
import proofs.«132651_j60120952209550_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

/-! ## The payload at an index -/

/-- The product's operand indices at output index `i` and contraction index `q`, axis by axis: the left operand's row
    is the output's row, the right operand's row is the output's column, and both contract their axis 1. -/
theorem lhs1_0 (i : S1024x128.Idx) (q : dot_S1024x128_S128x128_S1024x128_1_1_0_0_n_n.contr.Idx) :
    (dot_S1024x128_S128x128_S1024x128_1_1_0_0_n_n.lhsIdx i q 0).val = (i 0).val := by
  unfold DotDims.lhsIdx
  rw [dif_neg (show ¬(0 : Fin S1024x128.rank) ∈ dot_S1024x128_S128x128_S1024x128_1_1_0_0_n_n.lhsBatch by decide), dif_pos (show (0 : Fin S1024x128.rank) ∈ dot_S1024x128_S128x128_S1024x128_1_1_0_0_n_n.lhsNonContracting by decide)]
  rfl
theorem lhs1_1 (i : S1024x128.Idx) (q : dot_S1024x128_S128x128_S1024x128_1_1_0_0_n_n.contr.Idx) :
    (dot_S1024x128_S128x128_S1024x128_1_1_0_0_n_n.lhsIdx i q 1).val = (q ⟨0, by decide⟩).val :=
  dot_S1024x128_S128x128_S1024x128_1_1_0_0_n_n.lhsIdx_val_of_single rfl i q
theorem rhs1_0 (i : S1024x128.Idx) (q : dot_S1024x128_S128x128_S1024x128_1_1_0_0_n_n.contr.Idx) :
    (dot_S1024x128_S128x128_S1024x128_1_1_0_0_n_n.rhsIdx i q 0).val = (i 1).val := by
  unfold DotDims.rhsIdx
  rw [dif_neg (show ¬(0 : Fin S128x128.rank) ∈ dot_S1024x128_S128x128_S1024x128_1_1_0_0_n_n.rhsBatch by decide), dif_pos (show (0 : Fin S128x128.rank) ∈ dot_S1024x128_S128x128_S1024x128_1_1_0_0_n_n.rhsNonContracting by decide)]
  rfl
theorem rhs1_1 (i : S1024x128.Idx) (q : dot_S1024x128_S128x128_S1024x128_1_1_0_0_n_n.contr.Idx) :
    (dot_S1024x128_S128x128_S1024x128_1_1_0_0_n_n.rhsIdx i q 1).val = (q ⟨0, by decide⟩).val :=
  dot_S1024x128_S128x128_S1024x128_1_1_0_0_n_n.rhsIdx_val_of_single rfl i q

/-- The product into the zero splat, at (r, e): Σ_d A(r, d) · W(e, d). -/
theorem mm1 (a : FVec Ideal S1024x128 .f32) (w : FVec Ideal S128x128 .f32) (r : Fin 1024) (e : Fin 128) :
    matmul (F := Ideal) dot_S1024x128_S128x128_S1024x128_1_1_0_0_n_n none a w (constant S1024x128 .f32 0x00000000#32) (ix2 r e)
      = ∑ d : Fin 128, a (ix2 r d) * w (ix2 e d) := by
  show FloatOps.matmul dot_S1024x128_S128x128_S1024x128_1_1_0_0_n_n none a w (constant S1024x128 .f32 0x00000000#32) (ix2 r e) = _
  rw [Ideal.matmul_constant_zero_apply, ← Equiv.sum_comp (ValueIdx.contrEquiv1 dot_S1024x128_S128x128_S1024x128_1_1_0_0_n_n 128 rfl rfl).symm]
  refine Finset.sum_congr rfl fun k _ => ?_
  have hk := ValueIdx.contrEquiv1_symm_val dot_S1024x128_S128x128_S1024x128_1_1_0_0_n_n 128 rfl rfl k
  have el : dot_S1024x128_S128x128_S1024x128_1_1_0_0_n_n.lhsIdx (ix2 r e) ((ValueIdx.contrEquiv1 dot_S1024x128_S128x128_S1024x128_1_1_0_0_n_n 128 rfl rfl).symm k) = ix2 r k := funext fun ax => Fin.ext (by
    match ax with
    | ⟨0, _⟩ => exact lhs1_0 _ _
    | ⟨1, _⟩ => exact (lhs1_1 _ _).trans hk)
  have er : dot_S1024x128_S128x128_S1024x128_1_1_0_0_n_n.rhsIdx (ix2 r e) ((ValueIdx.contrEquiv1 dot_S1024x128_S128x128_S1024x128_1_1_0_0_n_n 128 rfl rfl).symm k) = ix2 e k := funext fun ax => Fin.ext (by
    match ax with
    | ⟨0, _⟩ => exact rhs1_0 _ _
    | ⟨1, _⟩ => exact (rhs1_1 _ _).trans hk)
  rw [el, er]

/-- The body's payload at (0, r, e): row r of the slab against row e of the weights, plus the bias at e. -/
theorem payX1 (x0 : Vec Ideal S1x1024x128 .f32) (x1 : Vec Ideal S128x128 .f32) (x2 : Vec Ideal S128 .f32) (r : Fin 1024) (e : Fin 128) :
    k1_pay1 (F := Ideal) x0 x1 x2 (ix3 (0 : Fin 1) r e) = (∑ d : Fin 128, x0 (ix3 (0 : Fin 1) r d) * x1 (ix2 e d)) + x2 (ix1 e) := by
  unfold k1_pay1
  rw [shapeCast_ab_1ab_apply, addf_apply, mm1, broadcastTo_1b_ab_apply, shapeCast_a_1a_apply]
  simp only [shapeCast_1ab_ab_apply]

/-! ## From the blocks to the array -/

variable (V : (c : Dev nD) → (b : Ref sig .tc) → Buf (Elt Ideal) ((c : Thread nD τ).loc b))

/-- Zero offsets, however many axes. -/
theorem hz1_3 : (![0, 0, 0] : Fin 3 → ℕ) = fun _ => 0 := funext fun a => by fin_cases a <;> rfl
theorem hz1_2 : (![0, 0] : Fin 2 → ℕ) = fun _ => 0 := funext fun a => by fin_cases a <;> rfl
theorem hz1_1 : (![0] : Fin 1 → ℕ) = fun _ => 0 := funext fun a => by fin_cases a <;> rfl

/-- The index maps over the grid: the input slab moves with the output slab, the weights and the bias stay at their
    one block, and the slabs are whole along the last axis. -/
theorem idx_facts1 : ∀ t : Fin cfg1.N, win1_0.index t (0 : Fin 3) = win1_3.index t (0 : Fin 3)
    ∧ win1_0.index t (1 : Fin 3) = win1_3.index t (1 : Fin 3)
    ∧ win1_0.index t (2 : Fin 3) = 0
    ∧ win1_1.index t (0 : Fin 2) = 0
    ∧ win1_1.index t (1 : Fin 2) = 0
    ∧ win1_2.index t (0 : Fin 1) = 0
    ∧ win1_3.index t (2 : Fin 3) = 0 :=
  (by decide +kernel : ∀ t : Fin grid1.N, _)

theorem flushed_eq1 (c : Dev nD) (t : Fin cfg1.N) :
    (dat1 (F := Ideal) V c).flushed 3 t
      = ((cfg1.win 3).blk t).view.read (Elt Ideal) (Cert.Spec.lin 2048 (V c main_v4) (V c main_arg1) (V c main_arg2)) := by
  show (cfg1.win 3).cut (grid1.coords t) ((dat1 V c).after 3 t) = _
  rw [after1_3]
  unfold out1_3
  rw [View.canon_unit_zero hz1_3]
  simp only [View.ld_unit_zero (S := S1x1024x128) hz1_3, View.ld_unit_zero (S := S128x128) hz1_2, View.ld_unit_zero (S := S128) hz1_1]
  obtain ⟨e0, e1, e2, e3, e4, e5, e6⟩ := idx_facts1 t
  funext j
  obtain ⟨u, r, e, rfl⟩ : ∃ (u : Fin 1) (r : Fin 1024) (e : Fin 128), j = ix3 u r e := ⟨j 0, j 1, j 2, eq_ix3 j⟩
  obtain rfl : u = 0 := Subsingleton.elim _ _
  show k1_pay1 (iblk1 V c 0 t) (iblk1 V c 1 t) (iblk1 V c 2 t) (ix3 (0 : Fin 1) r e) = Cert.Spec.lin 2048 (V c main_v4) (V c main_arg1) (V c main_arg2) (((cfg1.win 3).blk t).view.emb (ix3 (0 : Fin 1) r e))
  rw [payX1]
  unfold Cert.Spec.lin
  have h0 : ∀ d : Fin 128, iblk1 V c 0 t (ix3 (0 : Fin 1) r d)
      = V c main_v4 (ix3 (((cfg1.win 3).blk t).view.emb (ix3 (0 : Fin 1) r e) 0) (((cfg1.win 3).blk t).view.emb (ix3 (0 : Fin 1) r e) 1) d) := fun d => by
    show V c main_v4 (((cfg1.win 0).blk t).view.emb (ix3 (0 : Fin 1) r d)) = V c main_v4 _
    refine congrArg (V c main_v4) (funext fun a => Fin.ext ?_)
    match a with
    | ⟨0, _⟩ => show win1_0.index t (0 : Fin 3) * 1 + 1 * 0 = win1_3.index t (0 : Fin 3) * 1 + 1 * 0; omega
    | ⟨1, _⟩ => show win1_0.index t (1 : Fin 3) * 1024 + 1 * r.val = win1_3.index t (1 : Fin 3) * 1024 + 1 * r.val; omega
    | ⟨2, _⟩ => show win1_0.index t (2 : Fin 3) * 128 + 1 * d.val = d.val; omega
  have h1 : ∀ d : Fin 128, iblk1 V c 1 t (ix2 e d) = V c main_arg1 (ix2 (((cfg1.win 3).blk t).view.emb (ix3 (0 : Fin 1) r e) 2) d) := fun d => by
    show V c main_arg1 (((cfg1.win 1).blk t).view.emb (ix2 e d)) = V c main_arg1 _
    refine congrArg (V c main_arg1) (funext fun a => Fin.ext ?_)
    match a with
    | ⟨0, _⟩ => show win1_1.index t (0 : Fin 2) * 128 + 1 * e.val = win1_3.index t (2 : Fin 3) * 128 + 1 * e.val; omega
    | ⟨1, _⟩ => show win1_1.index t (1 : Fin 2) * 128 + 1 * d.val = d.val; omega
  have h2 : iblk1 V c 2 t (ix1 e) = V c main_arg2 (ix1 (((cfg1.win 3).blk t).view.emb (ix3 (0 : Fin 1) r e) 2)) := by
    show V c main_arg2 (((cfg1.win 2).blk t).view.emb (ix1 e)) = V c main_arg2 _
    refine congrArg (V c main_arg2) (funext fun a => Fin.ext ?_)
    match a with
    | ⟨0, _⟩ => show win1_2.index t (0 : Fin 1) * 128 + 1 * e.val = win1_3.index t (2 : Fin 3) * 128 + 1 * e.val; omega
  rw [h2]
  exact congrArg (· + _) (Finset.sum_congr rfl fun d _ => by rw [h0 d, h1 d])

/-- An index of the array is in point `t`'s block iff each coordinate is in the block's range on its axis. -/
theorem mem_blk1 (t : Fin cfg1.N) (i : S8x2048x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v5).slice (win1_3.rect t)).set ↔ _
  rw [View.set_slice_whole, Rect.mem_set_unit]
  exact Iff.rfl

/-- The grid is the array's batches by its slabs of 1024 rows. -/
theorem tiles1 : grid1.bound 0 = S8x2048x128.size 0 ∧ grid1.bound 1 * 1024 = S8x2048x128.size 1 := by decide

/-- Every (batch, slab) pair is some point's output block index. -/
theorem idx_onto1 : ∀ (q0 : Fin (grid1.bound 0)) (q1 : Fin (grid1.bound 1)), ∃ t : Fin cfg1.N,
    win1_3.index t (0 : Fin 3) = q0.val ∧ win1_3.index t (1 : Fin 3) = q1.val :=
  (by decide +kernel : ∀ (q0 : Fin (grid1.bound 0)) (q1 : Fin (grid1.bound 1)), ∃ t : Fin grid1.N,
    win1_3.index t (0 : Fin 3) = q0.val ∧ win1_3.index t (1 : Fin 3) = q1.val)

/-- The output's blocks cover its array: row l of batch b is in the block of the point with block index (b, l / 1024, 0). -/
theorem cover_arr1 (i : S8x2048x128.Idx) :
    ∃ t : Fin cfg1.N, (cfg1.win 3).flush t = true ∧ i ∈ ((cfg1.win 3).blk t).view.set := by
  obtain ⟨g0, g1⟩ := tiles1
  have hi0 : (i 0).val < S8x2048x128.size 0 := (i 0).isLt
  have hi1 : (i 1).val < S8x2048x128.size 1 := (i 1).isLt
  have hi2 : (i 2).val < 128 := (i 2).isLt
  obtain ⟨t, q0, q1⟩ := idx_onto1 ⟨(i 0).val, by omega⟩ ⟨(i 1).val / 1024, by omega⟩
  have q2 := (idx_facts1 t).2.2.2.2.2.2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; simp only [] at q0; omega
  | ⟨1, _⟩ => show win1_3.index t (1 : Fin 3) * 1024 ≤ (i 1).val ∧ (i 1).val < win1_3.index t (1 : Fin 3) * 1024 + 1024; simp only [] at q1; omega
  | ⟨2, _⟩ => show win1_3.index t (2 : Fin 3) * 128 ≤ (i 2).val ∧ (i 2).val < win1_3.index t (2 : Fin 3) * 128 + 128; omega

/-- The second linear layer's output array after its launch: the layer of the three argument arrays as the region finds them. -/
theorem final1 (c : Dev nD) :
    (dat1 (F := Ideal) V c).arrAt 3 cfg1.N = Cert.Spec.lin 2048 (V c main_v4) (V c main_arg1) (V c main_arg2) :=
  (dat1 (F := Ideal) V c).arrAt_eq_of_cover 3 (Cert.Spec.lin 2048 (V c main_v4) (V c main_arg1) (V c main_arg2))
    (fun t _ => flushed_eq1 V c t) cover_arr1

end Cert.KernelIdeal.Hand

end
-- ==== Proof.KI.SimMath.lean ====
/-
  The similarity kernel's four payloads read at an index, at the ideal instance: floats are extended reals and a
  change of format is the identity.
  • The reset payload is the zero splat: every entry is 0.
  • The squared-lengths payload at row r is Σ_d q(0, r, d)²: the query slab viewed [1024, 128], squared entry by entry,
    summed along each row from the word 0.0, the sums viewed as a [1024, 1] column.
  • The write-back payload is the accumulator viewed [1, 1024, 128]: entry (0, r, d) is the accumulator's (r, d).
  • One accumulation step at (r, d) is a(r, d) + Σ_k E(r, k) · p(0, k, d), with the weights
    E(r, k) = exp(−√max((s(r, 0) + ‖p_k‖²) − 2.0 · ⟨q_r, p_k⟩, 0) · 1.0): two products into zero splats (q · pᵀ, both
    operands contracted along axis 1, and the plain product E · p), the stored column s spread along the rows, the
    squared key lengths transposed to a row and spread down the columns.
  Each operation that is not entry by entry gets one small lemma at explicit coordinates; the words 2.0 and 1.0 stay
  as the bit patterns the payload spells, and only the zero word is evaluated.
-/
import proofs.«132651_j60120952209550_1_alg».proof.Proof.Gen.KernelIdeal.Skeleton
import proofs.«132651_j60120952209550_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- A vector of length `a` cast to an `[a, 1]` column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column at `i`. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

theorem pay2_apply (j : S1024x128.Idx) : k2_pay2 (F := Ideal) j = 0 := by
  show shapeCast S1024x128 (broadcast S1024x128 (Scalar.ofBits (F := Ideal) .f32 0x00000000#32)) shapeCasts_S1024x128_S1024x128 j = 0
  rw [shapeCast_self]
  exact Ideal.ofBits_zero_f32

theorem pay1_apply (a : Vec Ideal S1024x128 .f32) (r : Fin 1024) (d : Fin 128) : k2_pay1 (F := Ideal) a (ix3 0 r d) = a (ix2 r d) :=
  shapeCast_ab_1ab_apply a _ 0 r d

/-- The lane sum of a `[1024, 128]` array over axis 1 from the word 0.0, read at row `r`: the sum of the row. -/
theorem laneSum_apply (x : FVec Ideal S1024x128 .f32) (h : S1024x128.Reduces [1] S1024) (hφ : FKind.Formats .f32)
    (hacc : (0x00000000#32 : BitVec 32) = 0x00000000#32) (r : Fin 1024) :
    multiReduction (F := Ideal) .add [1] S1024 x 0x00000000#32 h hφ hacc (ix1 r) = ∑ d : Fin 128, x (ix2 r d) := by
  refine (Ideal.multiReduction_add_single x 0x00000000#32 h hφ hacc (ix1 r)).trans ?_
  show ∑ d : Fin 128, x (h.lift (ix1 r) d) = _
  refine Finset.sum_congr rfl fun d _ => congrArg x ?_
  funext a
  match a with
  | ⟨0, _⟩ => rfl
  | ⟨1, _⟩ => rfl

/-! ### The product `A · Bᵀ` (both operands contracted along axis 1) -/

theorem lhs_qk_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_qk_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_qk_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_qk_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- Into the zero splat, the product at `(r, k)` is the inner product of row `r` of the left operand with row `k` of the right. -/
theorem matmul_qk_apply (A B : FVec Ideal S1024x128 .f32) (r k : Fin 1024) :
    matmul dot_S1024x128_S1024x128_S1024x1024_1_1_0_0_n_n none A B (constant S1024x1024 .f32 0x00000000#32) (ix2 r k)
      = ∑ e : Fin 128, A (ix2 r e) * B (ix2 k e) := by
  simp only [matmul]
  rw [Ideal.matmul_constant_zero_apply, ← Equiv.sum_comp (contrEquiv1 dot_S1024x128_S1024x128_S1024x1024_1_1_0_0_n_n 128 rfl rfl).symm]
  refine Finset.sum_congr rfl fun e _ => ?_
  have hk := contrEquiv1_symm_val dot_S1024x128_S1024x128_S1024x1024_1_1_0_0_n_n 128 rfl rfl e
  have el : dot_S1024x128_S1024x128_S1024x1024_1_1_0_0_n_n.lhsIdx (ix2 r k) ((contrEquiv1 dot_S1024x128_S1024x128_S1024x1024_1_1_0_0_n_n 128 rfl rfl).symm e) = ix2 r e := funext fun a => Fin.ext (by
    match a with
    | ⟨0, _⟩ => exact lhs_qk_0 _ _
    | ⟨1, _⟩ => exact (lhs_qk_1 _ _).trans hk)
  have er : dot_S1024x128_S1024x128_S1024x1024_1_1_0_0_n_n.rhsIdx (ix2 r k) ((contrEquiv1 dot_S1024x128_S1024x128_S1024x1024_1_1_0_0_n_n 128 rfl rfl).symm e) = ix2 k e := funext fun a => Fin.ext (by
    match a with
    | ⟨0, _⟩ => exact rhs_qk_0 _ _
    | ⟨1, _⟩ => exact (rhs_qk_1 _ _).trans hk)
  rw [el, er]

/-! ### The plain product `E · B` -/

theorem lhs_ev_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_ev_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_ev_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_ev_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- Into the zero splat, the product at `(r, d)` is the sum over `k` of `E (r, k) · B (k, d)`. -/
theorem matmul_ev_apply (E : FVec Ideal S1024x1024 .f32) (B : FVec Ideal S1024x128 .f32) (r : Fin 1024) (d : Fin 128) :
    matmul dot_S1024x1024_S1024x128_S1024x128_1_0_0_1_n_n none E B (constant S1024x128 .f32 0x00000000#32) (ix2 r d)
      = ∑ k : Fin 1024, E (ix2 r k) * B (ix2 k d) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r d) ((contrEquiv1 dot_S1024x1024_S1024x128_S1024x128_1_0_0_1_n_n 1024 rfl rfl).symm k) = ix2 r k := funext fun a => Fin.ext (by
    match a with
    | ⟨0, _⟩ => exact lhs_ev_0 _ _
    | ⟨1, _⟩ => exact (lhs_ev_1 _ _).trans hk)
  have er : dot_S1024x1024_S1024x128_S1024x128_1_0_0_1_n_n.rhsIdx (ix2 r d) ((contrEquiv1 dot_S1024x1024_S1024x128_S1024x128_1_0_0_1_n_n 1024 rfl rfl).symm k) = ix2 k d := funext fun a => Fin.ext (by
    match a with
    | ⟨0, _⟩ => exact (rhs_ev_0 _ _).trans hk
    | ⟨1, _⟩ => exact rhs_ev_1 _ _)
  rw [el, er]

/-! ### The column of squared row lengths -/

/-- A `[1, 1024, 128]` slab viewed `[1024, 128]`. -/
def slab2 (x : Vec Ideal S1x1024x128 .f32) : FVec Ideal S1024x128 .f32 :=
  shapeCast S1024x128 x shapeCasts_S1x1024x128_S1024x128

theorem slab2_apply (x : Vec Ideal S1x1024x128 .f32) (r : Fin 1024) (d : Fin 128) : slab2 x (ix2 r d) = x (ix3 0 r d) :=
  shapeCast_1ab_ab_apply x _ r d

/-- The `[1024, 1]` column of the squared lengths of a slab's rows: the slab viewed `[1024, 128]`, squared entry by entry,
    summed along each row from the word 0.0, the sums viewed as a column. -/
def sqCol (x : Vec Ideal S1x1024x128 .f32) : FVec Ideal S1024x1 .f32 :=
  shapeCast S1024x1
    (multiReduction (F := Ideal) .add [1] S1024
      (mulf (slab2 x) (slab2 x))
      0x00000000#32 reduces_S1024x128_S1024 (.inl rfl) rfl)
    shapeCasts_S1024_S1024x1

/-- Its entry in row `r` is `Σ_d x(0, r, d)²`. -/
theorem sqCol_apply (x : Vec Ideal S1x1024x128 .f32) (r : Fin 1024) (u : Fin 1) :
    sqCol x (ix2 r u) = ∑ d : Fin 128, x (ix3 0 r d) * x (ix3 0 r d) := by
  unfold sqCol
  rw [shapeCast_a_a1_apply, laneSum_apply]
  refine Finset.sum_congr rfl fun d _ => ?_
  rw [mulf_apply, slab2_apply]

theorem pay3_apply (q : Vec Ideal S1x1024x128 .f32) (r : Fin 1024) :
    k2_pay3 (F := Ideal) q (ix2 r 0) = ∑ d : Fin 128, q (ix3 0 r d) * q (ix3 0 r d) := by
  show shapeCast S1024x1 (sqCol q) shapeCasts_S1024x1_S1024x1 (ix2 r 0) = _
  rw [shapeCast_self, sqCol_apply]

/-! ### One accumulation step -/

/-- The inner products `⟨q_r, p_k⟩` of the query slab's rows with the key slab's rows, as the kernel forms them. -/
def qkMat (q p : Vec Ideal S1x1024x128 .f32) : FVec Ideal S1024x1024 .f32 :=
  matmul dot_S1024x128_S1024x128_S1024x1024_1_1_0_0_n_n none (slab2 q) (slab2 p) (constant S1024x1024 .f32 0x00000000#32)

theorem qkMat_apply (q p : Vec Ideal S1x1024x128 .f32) (r k : Fin 1024) :
    qkMat q p (ix2 r k) = ∑ e : Fin 128, q (ix3 0 r e) * p (ix3 0 k e) := by
  unfold qkMat
  rw [matmul_qk_apply]
  refine Finset.sum_congr rfl fun e _ => ?_
  rw [slab2_apply, slab2_apply]

/-- The squared key lengths spread along the rows: entry `(r, k)` is `‖p_k‖²`. -/
def keyRow (p : Vec Ideal S1x1024x128 .f32) : FVec Ideal S1024x1024 .f32 :=
  broadcastTo S1024x1024 (transpose S1x1024 [1, 0] (sqCol p) transposes_S1024x1_p1_0_S1x1024) broadcasts_S1x1024_S1024x1024

theorem keyRow_apply (p : Vec Ideal S1x1024x128 .f32) (r k : Fin 1024) :
    keyRow p (ix2 r k) = ∑ e : Fin 128, p (ix3 0 k e) * p (ix3 0 k e) := by
  unfold keyRow
  rw [broadcastTo_1b_ab_apply, transpose_ix2_apply, sqCol_apply]

/-- The weights `exp((0 − √max((s_r + ‖p_k‖²) − 2.0·⟨q_r, p_k⟩, 0.0)) · 1.0)`, as the kernel forms them. -/
def simMat (q p : Vec Ideal S1x1024x128 .f32) (s : Vec Ideal S1024x1 .f32) : FVec Ideal S1024x1024 .f32 :=
  exp (mulf
    (subf (broadcast S1024x1024 (Scalar.ofBits (F := Ideal) .f32 0x00000000#32))
      (sqrt (maximumf
        (subf (addf (broadcastTo S1024x1024 s broadcasts_S1024x1_S1024x1024) (keyRow p))
          (mulf (broadcast S1024x1024 (Scalar.ofBits (F := Ideal) .f32 0x40000000#32)) (qkMat q p)))
        (broadcast S1024x1024 (Scalar.ofBits (F := Ideal) .f32 0x00000000#32)))))
    (broadcast S1024x1024 (Scalar.ofBits (F := Ideal) .f32 0x3F800000#32)))

theorem simMat_apply (q p : Vec Ideal S1x1024x128 .f32) (s : Vec Ideal S1024x1 .f32) (r k : Fin 1024) :
    simMat q p s (ix2 r k)
      = Ideal.exp (-(Ideal.sqrt (max ((s (ix2 r 0) + ∑ e : Fin 128, p (ix3 0 k e) * p (ix3 0 k e))
          - Cert.Spec.two * ∑ e : Fin 128, q (ix3 0 r e) * p (ix3 0 k e)) 0)) * Cert.Spec.one) := by
  show Ideal.exp ((Ideal.ofBits .f32 0x00000000#32
      - Ideal.sqrt (max ((broadcastTo S1024x1024 s broadcasts_S1024x1_S1024x1024 (ix2 r k) + keyRow p (ix2 r k))
          - Ideal.ofBits .f32 0x40000000#32 * qkMat q p (ix2 r k)) (Ideal.ofBits .f32 0x00000000#32)))
      * Ideal.ofBits .f32 0x3F800000#32) = _
  rw [broadcastTo_a1_ab_apply, keyRow_apply, qkMat_apply, Ideal.ofBits_zero_f32, zero_sub]

/-- The step's payload is the accumulator plus the weights times the key slab. -/
theorem k2_pay4_eq (q p : Vec Ideal S1x1024x128 .f32) (s : Vec Ideal S1024x1 .f32) (a : Vec Ideal S1024x128 .f32) :
    k2_pay4 (F := Ideal) q p s a
      = shapeCast S1024x128
          (addf a (matmul dot_S1024x1024_S1024x128_S1024x128_1_0_0_1_n_n none (simMat q p s) (slab2 p) (constant S1024x128 .f32 0x00000000#32)))
          shapeCasts_S1024x128_S1024x128 := rfl

theorem pay4_apply (q p : Vec Ideal S1x1024x128 .f32) (s : Vec Ideal S1024x1 .f32) (a : Vec Ideal S1024x128 .f32) (r : Fin 1024) (d : Fin 128) :
    k2_pay4 (F := Ideal) q p s a (ix2 r d)
      = a (ix2 r d) + ∑ k : Fin 1024, Ideal.exp (-(Ideal.sqrt (max ((s (ix2 r 0) + ∑ e : Fin 128, p (ix3 0 k e) * p (ix3 0 k e)) - Cert.Spec.two * ∑ e : Fin 128, q (ix3 0 r e) * p (ix3 0 k e)) 0)) * Cert.Spec.one) * p (ix3 0 k d) := by
  rw [k2_pay4_eq, shapeCast_self, addf_apply, matmul_ev_apply]
  refine congrArg (a (ix2 r d) + ·) (Finset.sum_congr rfl fun k _ => ?_)
  rw [simMat_apply, slab2_apply]

end Cert.KernelIdeal.Hand

end
-- ==== Proof.KI.ValSimSum.lean ====
/-
  A sum over 4096 keys is the sum of its four blocks of 1024 keys: key 1024·jj + k' is key k' of block jj.
  A sum over the first b·n naturals splits into n consecutive blocks of b; the sums over `Fin` are sums over ranges.
  Over any additive commutative monoid (the extended reals are one).
-/
import Mathlib.Algebra.BigOperators.Group.Finset.Basic
import Mathlib.Data.Fintype.BigOperators

namespace Cert.KernelIdeal.Hand

open scoped BigOperators

/-- The first `b · n` terms, summed block by block: `n` consecutive blocks of `b` terms. -/
theorem sum_range_blocks {M : Type*} [AddCommMonoid M] (f : ℕ → M) (b : ℕ) :
    ∀ n : ℕ, ∑ k ∈ Finset.range (b * n), f k = ∑ jj ∈ Finset.range n, ∑ k' ∈ Finset.range b, f (b * jj + k')
  | 0 => by rw [Nat.mul_zero, Finset.sum_range_zero, Finset.sum_range_zero]
  | n + 1 => by rw [Nat.mul_succ, Finset.sum_range_add, sum_range_blocks f b n, Finset.sum_range_succ]

/-- The sum over 4096 keys is the sum over its four blocks of 1024 keys. -/
theorem sum_keys_blocks {M : Type*} [AddCommMonoid M] (f : ℕ → M) :
    ∑ k : Fin 4096, f k.val = ∑ jj ∈ Finset.range 4, ∑ k' : Fin 1024, f (1024 * jj + k'.val) := by
  rw [Fin.sum_univ_eq_sum_range f 4096, show (4096 : ℕ) = 1024 * 4 from rfl, sum_range_blocks f 1024 4]
  refine Finset.sum_congr rfl fun jj _ => ?_
  exact (Fin.sum_univ_eq_sum_range (fun k' => f (1024 * jj + k')) 1024).symm

/-- One more block: the sum over the first `j + 1` blocks is the sum over the first `j` plus block `j`. -/
theorem sum_blocks_succ {M : Type*} [AddCommMonoid M] (g : ℕ → M) (j : ℕ) :
    ∑ jj ∈ Finset.range (j + 1), g jj = (∑ jj ∈ Finset.range j, g jj) + g j :=
  Finset.sum_range_succ g j

end Cert.KernelIdeal.Hand
-- ==== Proof.KI.ValSimInv.lean ====
/-
  The similarity kernel's launch, read as values on the extended reals: what the two input windows' blocks are of
  their arrays, and what the two scratch buffers hold after each grid point.
  The 64 points run in order (b, qi, ki), ki fastest. Within a group of four consecutive points the query slab is
  rows 1024·qi … of batch b and the key slab is block ki of batch b. After the point with key block j the column of
  squared lengths holds ‖q_r‖² of the slab's rows and the accumulator holds, at (r, d), the sum over the key blocks
  0 … j of Σ_k' sim(q_r, p_k)·p_k(d), k = 1024·jj + k'. Sums on the extended reals are sums in a commutative additive
  monoid: no finiteness is needed to regroup them.
-/
import proofs.«132651_j60120952209550_1_alg».proof.Proof.KI.Sim2
import proofs.«132651_j60120952209550_1_alg».proof.Proof.KI.SimMath
import proofs.«132651_j60120952209550_1_alg».proof.Proof.KI.ValSimSum
import proofs.«132651_j60120952209550_1_alg».proof.Proof.Spec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

/-! ## The arrays and the blocks, at their literal types -/

/-- The queries, [8,2048,128]. -/
abbrev Qarr (c : Dev nD) : Vec Ideal S8x2048x128 .f32 := V c main_v5
/-- The keys, [8,4096,128]. -/
abbrev Parr (c : Dev nD) : Vec Ideal S8x4096x128 .f32 := V c main_v0
/-- The query slab at point `t`. -/
abbrev qblk (c : Dev nD) (t : Fin cfg2.N) : Vec Ideal S1x1024x128 .f32 := iblk2 V c 0 t
/-- The key slab at point `t`. -/
abbrev pblk (c : Dev nD) (t : Fin cfg2.N) : Vec Ideal S1x1024x128 .f32 := iblk2 V c 1 t

theorem lt64 (t : Fin cfg2.N) : t.val < 64 := lt_of_lt_of_eq t.isLt (show cfg2.N = 64 from N_2)

/-- The batch of point `t`. -/
abbrev batchOf (t : Fin cfg2.N) : Fin 8 := ⟨t.val / 8, by have := lt64 t; omega⟩
/-- Row `r` of point `t`'s query slab, among the 2048 query rows. -/
abbrev qRow (t : Fin cfg2.N) (r : Fin 1024) : Fin 2048 := ⟨1024 * (t.val / 4 % 2) + r.val, by have := r.isLt; omega⟩
/-- Row `k` of point `t`'s key slab, among the 4096 key rows. -/
abbrev kRow (t : Fin cfg2.N) (k : Fin 1024) : Fin 4096 := ⟨1024 * (t.val % 4) + k.val, by have := k.isLt; omega⟩

/-- The printed index maps, decided over the grid: the block indices of the three windows at point `t`. -/
theorem idx_facts2 : ∀ t : Fin cfg2.N,
    win2_0.index t (0 : Fin 3) = t.val / 8 ∧ win2_0.index t (1 : Fin 3) = t.val / 4 % 2 ∧ win2_0.index t (2 : Fin 3) = 0
    ∧ win2_1.index t (0 : Fin 3) = t.val / 8 ∧ win2_1.index t (1 : Fin 3) = t.val % 4 ∧ win2_1.index t (2 : Fin 3) = 0
    ∧ win2_2.index t (0 : Fin 3) = t.val / 8 ∧ win2_2.index t (1 : Fin 3) = t.val / 4 % 2 ∧ win2_2.index t (2 : Fin 3) = 0 :=
  (by decide +kernel : ∀ t : Fin grid2.N, _)

/-- The query slab read at (0, r, d) is the query array at (b, 1024·qi + r, d). -/
theorem qblk_apply (c : Dev nD) (t : Fin cfg2.N) (r : Fin 1024) (d : Fin 128) :
    qblk V c t (ix3 0 r d) = Qarr V c (ix3 (batchOf t) (qRow t r) d) := by
  obtain ⟨e0, e1, e2, -⟩ := idx_facts2 t
  show V c main_v5 (((cfg2.win 0).blk t).view.emb (ix3 0 r d)) = V c main_v5 _
  refine congrArg (V c main_v5) (funext fun a => Fin.ext ?_)
  match a with
  | ⟨0, _⟩ => show win2_0.index t (0 : Fin 3) * 1 + 1 * 0 = t.val / 8; omega
  | ⟨1, _⟩ => show win2_0.index t (1 : Fin 3) * 1024 + 1 * r.val = 1024 * (t.val / 4 % 2) + r.val; omega
  | ⟨2, _⟩ => show win2_0.index t (2 : Fin 3) * 128 + 1 * d.val = d.val; omega

/-- The key slab read at (0, k, d) is the key array at (b, 1024·ki + k, d). -/
theorem pblk_apply (c : Dev nD) (t : Fin cfg2.N) (k : Fin 1024) (d : Fin 128) :
    pblk V c t (ix3 0 k d) = Parr V c (ix3 (batchOf t) (kRow t k) d) := by
  obtain ⟨-, -, -, e0, e1, e2, -⟩ := idx_facts2 t
  show V c main_v0 (((cfg2.win 1).blk t).view.emb (ix3 0 k d)) = V c main_v0 _
  refine congrArg (V c main_v0) (funext fun a => Fin.ext ?_)
  match a with
  | ⟨0, _⟩ => show win2_1.index t (0 : Fin 3) * 1 + 1 * 0 = t.val / 8; omega
  | ⟨1, _⟩ => show win2_1.index t (1 : Fin 3) * 1024 + 1 * k.val = 1024 * (t.val % 4) + k.val; omega
  | ⟨2, _⟩ => show win2_1.index t (2 : Fin 3) * 128 + 1 * d.val = d.val; omega

/-! ## One accumulation step, on the arrays -/

/-- Key `n` of the 4096 (taken mod 4096, so that every natural names a key; below 4096 it is key `n`). -/
abbrev keyN (n : ℕ) : Fin 4096 := ⟨n % 4096, Nat.mod_lt _ (by decide)⟩

theorem keyN_val (k : Fin 4096) : keyN k.val = k := Fin.ext (Nat.mod_eq_of_lt k.isLt)

/-- What key `n` contributes to the result at query row (b, l), lane d: its weight times its row's entry. -/
def term (Q : Vec Ideal S8x2048x128 .f32) (P : Vec Ideal S8x4096x128 .f32) (b : Fin 8) (l : Fin 2048) (d : Fin 128) (n : ℕ) : EReal :=
  Cert.Spec.sim Q P b l (keyN n) * P (ix3 b (keyN n) d)

/-- One step: when the query slab's row `r` is query row (b, l), the key slab is key block `j` of batch b, and the
    column holds ‖q_r‖², the step adds to the accumulator at (r, d) the contributions of block `j`'s 1024 keys. -/
theorem step_apply (Q : Vec Ideal S8x2048x128 .f32) (P : Vec Ideal S8x4096x128 .f32) (q p : Vec Ideal S1x1024x128 .f32)
    (s : Vec Ideal S1024x1 .f32) (a : Vec Ideal S1024x128 .f32) (b : Fin 8) (l : Fin 2048) (j : ℕ) (r : Fin 1024) (d : Fin 128)
    (hq : ∀ e : Fin 128, q (ix3 0 r e) = Q (ix3 b l e))
    (hp : ∀ (k : Fin 1024) (e : Fin 128), p (ix3 0 k e) = P (ix3 b (keyN (1024 * j + k.val)) e))
    (hs : s (ix2 r 0) = Cert.Spec.sq 2048 Q b l) :
    k2_pay4 (F := Ideal) q p s a (ix2 r d) = a (ix2 r d) + ∑ k' : Fin 1024, term Q P b l d (1024 * j + k'.val) := by
  rw [pay4_apply, hs]
  refine congrArg (a (ix2 r d) + ·) (Finset.sum_congr rfl fun k _ => ?_)
  simp only [hq, hp]
  rfl

/-! ## The two scratch buffers after each point -/

/-- After point `t`, at row `r` of the query slab: the column holds the row's squared length, the accumulator the
    contributions of the key blocks 0 … t mod 4. -/
def ScInv (c : Dev nD) (t : Fin cfg2.N) (r : Fin 1024) : Prop :=
  (scAt2 V c t.val t.isLt).2 (ix2 r 0) = Cert.Spec.sq 2048 (Qarr V c) (batchOf t) (qRow t r)
  ∧ ∀ d : Fin 128, (scAt2 V c t.val t.isLt).1 (ix2 r d)
      = ∑ jj ∈ Finset.range (t.val % 4 + 1), ∑ k' : Fin 1024, term (Qarr V c) (Parr V c) (batchOf t) (qRow t r) d (1024 * jj + k'.val)

/-- The key slab at point `t` is key block `t mod 4` of the batch. -/
theorem pblk_key (c : Dev nD) (t : Fin cfg2.N) (k : Fin 1024) (e : Fin 128) :
    pblk V c t (ix3 0 k e) = Parr V c (ix3 (batchOf t) (keyN (1024 * (t.val % 4) + k.val)) e) :=
  (pblk_apply V c t k e).trans (congrArg (fun kk => Parr V c (ix3 (batchOf t) kk e))
    (Fin.ext (by have := k.isLt; show 1024 * (t.val % 4) + k.val = (1024 * (t.val % 4) + k.val) % 4096; omega)))

/-- At a point ≡ 0 (mod 4): the squared lengths freshly computed, the accumulator one step from zero. -/
theorem scInv_fresh (c : Dev nD) (t : Fin cfg2.N) (h0 : t.val % 4 = 0) (r : Fin 1024) : ScInv V c t r := by
  unfold ScInv
  rw [scAt2_fresh V c t h0]; unfold scFresh; dsimp only
  have hs : k2_pay3 (F := Ideal) (qblk V c t) (ix2 r 0) = Cert.Spec.sq 2048 (Qarr V c) (batchOf t) (qRow t r) := by
    rw [pay3_apply]; simp only [qblk_apply]; rfl
  refine ⟨hs, fun d => ?_⟩
  refine (step_apply (Qarr V c) (Parr V c) (qblk V c t) (pblk V c t) _ _ (batchOf t) (qRow t r) (t.val % 4) r d
    (fun e => qblk_apply V c t r e) (fun k e => pblk_key V c t k e) hs).trans ?_
  rw [pay2_apply, zero_add, sum_blocks_succ, show Finset.range (t.val % 4) = ∅ from by rw [h0]; rfl, Finset.sum_empty, zero_add]

/-- At any other point: the squared lengths kept, the accumulator one more block. -/
theorem scInv_next (c : Dev nD) (t : Fin cfg2.N) (h0 : ¬t.val % 4 = 0) (r : Fin 1024)
    (ih : ScInv V c ⟨t.val - 1, Nat.lt_of_le_of_lt (Nat.sub_le _ _) t.isLt⟩ r) : ScInv V c t r := by
  unfold ScInv at ih ⊢
  dsimp only at ih
  rw [scAt2_next V c t h0]; unfold scNext; dsimp only
  obtain ⟨ihs, iha⟩ := ih
  have hb : batchOf (⟨t.val - 1, Nat.lt_of_le_of_lt (Nat.sub_le _ _) t.isLt⟩ : Fin cfg2.N) = batchOf t :=
    Fin.ext (by show (t.val - 1) / 8 = t.val / 8; omega)
  have hq : qRow (⟨t.val - 1, Nat.lt_of_le_of_lt (Nat.sub_le _ _) t.isLt⟩ : Fin cfg2.N) r = qRow t r :=
    Fin.ext (by show 1024 * ((t.val - 1) / 4 % 2) + r.val = 1024 * (t.val / 4 % 2) + r.val; omega)
  have hm : (t.val - 1) % 4 + 1 = t.val % 4 := by omega
  rw [hb, hq] at ihs iha
  refine ⟨ihs, fun d => ?_⟩
  refine (step_apply (Qarr V c) (Parr V c) (qblk V c t) (pblk V c t) _ _ (batchOf t) (qRow t r) (t.val % 4) r d
    (fun e => qblk_apply V c t r e) (fun k e => pblk_key V c t k e) ihs).trans ?_
  rw [iha d, hm, ← sum_blocks_succ]

/-- The invariant at every point, by induction on the point. -/
theorem scInv (c : Dev nD) : ∀ (n : ℕ) (hn : n < cfg2.N) (r : Fin 1024), ScInv V c ⟨n, hn⟩ r
  | 0, hn, r => scInv_fresh V c ⟨0, hn⟩ rfl r
  | n + 1, hn, r => by
    by_cases h0 : (n + 1) % 4 = 0
    · exact scInv_fresh V c ⟨n + 1, hn⟩ h0 r
    · exact scInv_next V c ⟨n + 1, hn⟩ h0 r (scInv c n (Nat.lt_of_succ_lt hn) r)

/-! ## What the last point of a group leaves: all 4096 keys -/

/-- After a point ≡ 3 (mod 4) the accumulator holds the weighted sum over all the keys. -/
theorem acc_last (c : Dev nD) (t : Fin cfg2.N) (h3 : t.val % 4 = 3) (r : Fin 1024) (d : Fin 128) :
    (scAt2 V c t.val t.isLt).1 (ix2 r d) = Cert.Spec.wsum (Qarr V c) (Parr V c) (ix3 (batchOf t) (qRow t r) d) := by
  rw [((scInv V c t.val t.isLt r).2 d), h3, ← sum_keys_blocks (term (Qarr V c) (Parr V c) (batchOf t) (qRow t r) d)]
  unfold term
  simp only [keyN_val]
  rfl

end Cert.KernelIdeal.Hand

end
-- ==== Proof.KI.ValSim.lean ====
/-
  What the similarity kernel's launch leaves in its output array: one function of the query and key arrays.
  The output block is written back at the points ≡ 3 (mod 4); there the accumulator holds the weighted sum over all
  4096 keys, and the block written is that sum read through the block's rectangle: rows 1024·qi … of batch b.
  Every row (b, l) lies in the block of the point 8·b + 4·(l / 1024) + 3, so the blocks written back cover the array.
-/
import proofs.«132651_j60120952209550_1_alg».proof.Proof.KI.ValSimInv
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The output block's element (0, r, d) at point `t` sits in the array at (b, 1024·qi + r, d). -/
theorem oblk_emb (t : Fin cfg2.N) (r : Fin 1024) (d : Fin 128) :
    ((cfg2.win 2).blk t).view.emb (ix3 0 r d) = ix3 (batchOf t) (qRow t r) d := by
  obtain ⟨-, -, -, -, -, -, e0, e1, e2⟩ := idx_facts2 t
  refine funext fun a => Fin.ext ?_
  match a with
  | ⟨0, _⟩ => show win2_2.index t (0 : Fin 3) * 1 + 1 * 0 = t.val / 8; omega
  | ⟨1, _⟩ => show win2_2.index t (1 : Fin 3) * 1024 + 1 * r.val = 1024 * (t.val / 4 % 2) + r.val; omega
  | ⟨2, _⟩ => show win2_2.index t (2 : Fin 3) * 128 + 1 * d.val = d.val; omega

/-- WHAT A POINT ≡ 3 (mod 4) WRITES BACK is its block of the weighted sum over all the keys. -/
theorem flushed2_eq (c : Dev nD) (t : Fin cfg2.N) (hf : (cfg2.win 2).flush t = true) :
    (dat2 V c).flushed 2 t = ((cfg2.win 2).blk t).view.read (Elt Ideal) (Cert.Spec.wsum (Qarr V c) (Parr V c)) := by
  have h3 : t.val % 4 = 3 := (flush2_2 t).mp hf
  show (cfg2.win 2).cut (grid2.coords t) ((dat2 V c).after 2 t) = _
  rw [after2_2]
  refine funext fun (j : S1x1024x128.Idx) => ?_
  obtain ⟨u, r, d, rfl⟩ : ∃ (u : Fin 1) (r : Fin 1024) (d : Fin 128), j = ix3 u r d := ⟨j 0, j 1, j 2, eq_ix3 j⟩
  obtain rfl : u = 0 := Subsingleton.elim _ _
  show k2_pay1 (F := Ideal) (scAt2 V c t.val t.isLt).1 (ix3 0 r d)
    = Cert.Spec.wsum (Qarr V c) (Parr V c) (((cfg2.win 2).blk t).view.emb (ix3 0 r d))
  rw [pay1_apply, acc_last V c t h3, oblk_emb]

/-- An index of the array is in point `t`'s block iff each coordinate is in the block's range on its axis. -/
theorem mem_blk2 (t : Fin cfg2.N) (i : S8x2048x128.Idx) :
    i ∈ ((cfg2.win 2).blk t).view.set ↔ ∀ a : Fin 3, win2_2.index t a * S1x1024x128.size a ≤ (i a).val
      ∧ (i a).val < win2_2.index t a * S1x1024x128.size a + S1x1024x128.size a := by
  show i ∈ ((View.whole main_v6).slice (win2_2.rect t)).set ↔ _
  rw [View.set_slice_whole, Rect.mem_set_unit]
  exact Iff.rfl

/-- THE ARRAY after the run: the weighted sum of the key rows, for every query row. -/
theorem final2 (c : Dev nD) :
    (dat2 (F := Ideal) V c).arrAt 2 cfg2.N = Cert.Spec.wsum (V c main_v5) (V c main_v0) :=
  (dat2 V c).arrAt_eq_of_cover 2 (Cert.Spec.wsum (Qarr V c) (Parr V c)) (fun t hf => flushed2_eq V c t hf) fun i => by
    have h0 : (i 0).val < 8 := (i 0).isLt
    have h1 : (i 1).val < 2048 := (i 1).isLt
    have h2 : (i 2).val < 128 := (i 2).isLt
    have hN : cfg2.N = 64 := N_2
    have ht : 8 * (i 0).val + 4 * ((i 1).val / 1024) + 3 < cfg2.N := by rw [hN]; omega
    refine ⟨⟨8 * (i 0).val + 4 * ((i 1).val / 1024) + 3, ht⟩, (flush2_2 _).mpr (by show (8 * (i 0).val + 4 * ((i 1).val / 1024) + 3) % 4 = 3; omega), ?_⟩
    obtain ⟨-, -, -, -, -, -, e0, e1, e2⟩ := idx_facts2 ⟨8 * (i 0).val + 4 * ((i 1).val / 1024) + 3, ht⟩
    rw [mem_blk2]
    intro a
    match a with
    | ⟨0, _⟩ =>
      show win2_2.index ⟨8 * (i 0).val + 4 * ((i 1).val / 1024) + 3, ht⟩ (0 : Fin 3) * 1 ≤ (i 0).val
        ∧ (i 0).val < win2_2.index ⟨8 * (i 0).val + 4 * ((i 1).val / 1024) + 3, ht⟩ (0 : Fin 3) * 1 + 1
      rw [e0]; show (8 * (i 0).val + 4 * ((i 1).val / 1024) + 3) / 8 * 1 ≤ (i 0).val ∧ (i 0).val < (8 * (i 0).val + 4 * ((i 1).val / 1024) + 3) / 8 * 1 + 1
      omega
    | ⟨1, _⟩ =>
      show win2_2.index ⟨8 * (i 0).val + 4 * ((i 1).val / 1024) + 3, ht⟩ (1 : Fin 3) * 1024 ≤ (i 1).val
        ∧ (i 1).val < win2_2.index ⟨8 * (i 0).val + 4 * ((i 1).val / 1024) + 3, ht⟩ (1 : Fin 3) * 1024 + 1024
      rw [e1]; show (8 * (i 0).val + 4 * ((i 1).val / 1024) + 3) / 4 % 2 * 1024 ≤ (i 1).val ∧ (i 1).val < (8 * (i 0).val + 4 * ((i 1).val / 1024) + 3) / 4 % 2 * 1024 + 1024
      omega
    | ⟨2, _⟩ =>
      show win2_2.index ⟨8 * (i 0).val + 4 * ((i 1).val / 1024) + 3, ht⟩ (2 : Fin 3) * 128 ≤ (i 2).val
        ∧ (i 2).val < win2_2.index ⟨8 * (i 0).val + 4 * ((i 1).val / 1024) + 3, ht⟩ (2 : Fin 3) * 128 + 128
      rw [e2]; omega

end Cert.KernelIdeal.Hand

end
-- ==== Proof.KI.Values.lean ====
/-
  What the idealized kernel program returns, as the specification's functions of the launch arguments.
  The first result is the second linear layer's output array: the layer applied to the pooled rows.
  The second (returned twice) is the similarity kernel's output array: the weighted sum of the first launch's rows,
  the weights the similarities of the second launch's rows to them.
-/
import proofs.«132651_j60120952209550_1_alg».proof.Proof.KI.HostPool
import proofs.«132651_j60120952209550_1_alg».proof.Proof.KI.ValLin0
import proofs.«132651_j60120952209550_1_alg».proof.Proof.KI.ValLin1
import proofs.«132651_j60120952209550_1_alg».proof.Proof.KI.ValSim

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The first launch leaves the linear layer of the launch input. -/
theorem projected_eq (c : Dev nD) :
    (dat0 (F := Ideal) (V0 m) c).arrAt 3 cfg0.N
      = Cert.Spec.lin 4096 (m ((c : Thread nD τ).loc main_arg0)) (m ((c : Thread nD τ).loc main_arg1)) (m ((c : Thread nD τ).loc main_arg2)) :=
  final0 (V0 m) c

/-- The second launch leaves the linear layer of the pooled rows. -/
theorem queries_eq (c : Dev nD) :
    (dat1 (F := Ideal) (V2 m) c).arrAt 3 cfg1.N
      = Cert.Spec.resQ (m ((c : Thread nD τ).loc main_arg0)) (m ((c : Thread nD τ).loc main_arg1)) (m ((c : Thread nD τ).loc main_arg2)) := by
  rw [final1 (V2 m) c, V2_main_v4, V2_main_arg1, V2_main_arg2]; rfl

/-- The first result. -/
theorem main_v5_eq (c : Dev nD) :
    W4 m c (Proc.devRef .tc main_v5)
      = Cert.Spec.resQ (m ((c : Thread nD τ).loc main_arg0)) (m ((c : Thread nD τ).loc main_arg1)) (m ((c : Thread nD τ).loc main_arg2)) :=
  (W4_main_v5 m c).trans (queries_eq m c)

/-- The second result. -/
theorem main_v6_eq (c : Dev nD) :
    W4 m c (Proc.devRef .tc main_v6)
      = Cert.Spec.resK (m ((c : Thread nD τ).loc main_arg0)) (m ((c : Thread nD τ).loc main_arg1)) (m ((c : Thread nD τ).loc main_arg2)) := by
  rw [W4_main_v6, final2 (V3 m) c, V3_main_v5, V3_main_v0, queries_eq, projected_eq]; rfl

end Cert.KernelIdeal.Hand

end
-- ==== Proof.lean ====
/-
  The certificate of a retrieval-style kernel against its reference, over the extended reals.

  The program projects the input rows, x·Wᵀ + b, and the pair-means of the input rows through the same layer
  (the queries q); then, for every query row, sums the projected rows p_k with the weights
  exp(−√max(‖q‖² + ‖p_k‖² − 2⟨q,p_k⟩, 0)·1). The kernel runs three launches: the linear layer twice, and a third that
  walks the 4096 keys in four blocks of 1024, keeping the running sum and the query rows' squared lengths in two
  scratch buffers between grid points and copying the sum out at the fourth block. The reference does it all at
  once on the host. The two agree entry by entry because a sum over 4096 keys is the sum of its four blocks' sums,
  started from zero: addition of extended reals is commutative and associative, and nothing else is used, so the
  inputs' finiteness is never consulted.

  Frames: each kernel program's run is composed from one record per launch (the body's run at every grid point, the
  scratch buffers' contents carried through the third launch's invariant) over the host operations between them;
  the reference's is its run with the results dropped. The idealized kernel is the kernel's own text, so nothing is
  owed for the idealization.
-/
import proofs.«132651_j60120952209550_1_alg».proof.Defs
import proofs.«132651_j60120952209550_1_alg».proof.Proof.Gen.Kernel
import proofs.«132651_j60120952209550_1_alg».proof.Proof.Gen.KernelIdeal
import proofs.«132651_j60120952209550_1_alg».proof.Proof.Gen.ReferenceIdeal
import proofs.«132651_j60120952209550_1_alg».proof.Proof.Gen.Pre_finite_inputs
import proofs.«132651_j60120952209550_1_alg».proof.Proof.K.Run
import proofs.«132651_j60120952209550_1_alg».proof.Proof.KI.Values
import Idealize.ShloMosaic.Adequacy
import Idealize.ShloMosaic.Init

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level kernel runs, and its argument arrays end as launched: read off the run's last valuation. -/
theorem frame_K : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W4_main_arg0 m c),
     (h c _ (Cert.Kernel.Hand.mem_uc Cert.Kernel.main_arg1 (by decide))).trans (Cert.Kernel.Hand.W4_main_arg1 m c),
     (h c _ (Cert.Kernel.Hand.mem_uc Cert.Kernel.main_arg2 (by decide))).trans (Cert.Kernel.Hand.W4_main_arg2 m c)⟩)
    (Cert.Kernel.Hand.run (F := Bits) m ρ)

/-- The same of the idealized kernel. -/
theorem frame_KI : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W4_main_arg0 m c),
     (h c _ (Cert.KernelIdeal.Hand.mem_uc Cert.KernelIdeal.main_arg1 (by decide))).trans (Cert.KernelIdeal.Hand.W4_main_arg1 m c),
     (h c _ (Cert.KernelIdeal.Hand.mem_uc Cert.KernelIdeal.main_arg2 (by decide))).trans (Cert.KernelIdeal.Hand.W4_main_arg2 m c)⟩)
    (Cert.KernelIdeal.Hand.run (F := Ideal) m ρ)

/-- The reference runs: its run with the results dropped. -/
theorem frame_RI : Cert.frame_ReferenceIdeal := fun m ρ _ =>
  (θ_run (Cert.ReferenceIdeal.defs (F := Ideal)) _ _).mono (fun _ h c => (h c).2.2.2) (Cert.ReferenceIdeal.Value.run (F := Ideal) m ρ)

/-- Both idealized programs end with the specification's two functions of the arguments in their result arrays. -/
theorem algebraic : Cert.algebraic_KernelIdeal_ReferenceIdeal := by
  intro m ρ m' ρ' _ hagree
  refine ⟨fun c => Cert.Spec.resQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.resK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.resK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run (Cert.KernelIdeal.defs (F := Ideal)) _ _).mono (fun r h c =>
      ⟨(h c _ (Cert.KernelIdeal.Hand.mem_uc Cert.KernelIdeal.main_v5 (by decide))).trans (Cert.KernelIdeal.Hand.main_v5_eq m c),
       (h c _ (Cert.KernelIdeal.Hand.mem_uc Cert.KernelIdeal.main_v6 (by decide))).trans (Cert.KernelIdeal.Hand.main_v6_eq m c),
       (h c _ (Cert.KernelIdeal.Hand.mem_uc Cert.KernelIdeal.main_v6 (by decide))).trans (Cert.KernelIdeal.Hand.main_v6_eq m c),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c),
       (h c _ (Cert.KernelIdeal.Hand.mem_uc Cert.KernelIdeal.main_arg2 (by decide))).trans (Cert.KernelIdeal.Hand.W4_main_arg2 m c)⟩)
      (Cert.KernelIdeal.Hand.run (F := Ideal) m ρ)
  · refine (θ_run (Cert.ReferenceIdeal.defs (F := Ideal)) _ _).mono (fun r h c => ?_) (Cert.ReferenceIdeal.Value.run (F := Ideal) m' ρ')
    have hq := ((h c).1.trans (Cert.ReferenceIdeal.Read.val_main_v11_eq _ _ _)).trans (Cert.RefSide.q_eq _ _ _)
    have hk := ((h c).2.1.trans (Cert.ReferenceIdeal.Read.val_main_v32_eq _ _ _)).trans (Cert.RefSide.k_eq _ _ _)
    rw [(hagree c).1, (hagree c).2.1, (hagree c).2.2] at hq hk
    exact ⟨hq, hk, hk, (h c).2.2.2⟩

theorem claim : Cert.Claim := ⟨Cert.Kernel.Gen.facts, Cert.KernelIdeal.Gen.facts, Cert.ReferenceIdeal.Gen.facts, Cert.Pre_finite_inputs.Gen.facts,
  frame_K, frame_KI, frame_RI, trivial, algebraic⟩

end Cert.Proof

end
